-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2 : Shape := ⟨2, ![16384, 2]⟩
abbrev S16384x128 : Shape := ⟨2, ![16384, 128]⟩
abbrev S16384x64 : Shape := ⟨2, ![16384, 64]⟩
abbrev S16384x1024 : Shape := ⟨2, ![16384, 1024]⟩
abbrev S3072x194 : Shape := ⟨2, ![3072, 194]⟩
abbrev S3072x1024 : Shape := ⟨2, ![3072, 1024]⟩
abbrev S3072 : Shape := ⟨1, ![3072]⟩
abbrev S1024x576 : Shape := ⟨2, ![1024, 576]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x64 : S_.BroadcastsInDim S16384x64 (![] : Fin 0 → Fin S16384x64.rank)
  reducesTo_S16384x64_S_d0_1 : S16384x64.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S3072x194 : S_.BroadcastsInDim S3072x194 (![] : Fin 0 → Fin S3072x194.rank)
  reducesTo_S3072x194_S_d0_1 : S3072x194.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x576 : S_.BroadcastsInDim S1024x576 (![] : Fin 0 → Fin S1024x576.rank)
  reducesTo_S1024x576_S_d0_1 : S1024x576.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg14 : FVec F S1024x576 .f32) (main_arg15 : FVec F S1024 .f32) (main_arg16 : FVec F S256x1024 .f32) (main_arg17 : FVec F S256 .f32) (main_v63 : IVec S_ 1) (main_v67 : IVec S_ 1) : IVec S_ 1 :=
  let main_v68 : IVec S_ 1 := andi main_v63 main_v67
  let main_v69 : FVec F S1024x576 .f32 := Host.absf main_arg14
  let main_cst_26 : FVec F S_ .f32 := constant S_ .f32 0x7F800000#32
  let main_v70 : FVec F S1024x576 .f32 := broadcastInDim S1024x576 ![] bcast_S_S1024x576 main_cst_26
  let main_v71 : IVec S1024x576 1 := cmpf .olt main_v69 main_v70
  let main_c_27 : IVec S_ 1 := constantI S_ 1 1#1
  let main_v72 : IVec S_ 1 := (fun x v => Host.reduce IntOp.andi x v reducesTo_S1024x576_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S256x1024 .f32 := Host.absf main_arg16
  let main_cst_30 : FVec F S_ .f32 := constant S_ .f32 0x7F800000#32
  let main_v80 : FVec F S256x1024 .f32 := broadcastInDim S256x1024 ![] bcast_S_S256x1024 main_cst_30
  let main_v81 : IVec S256x1024 1 := cmpf .olt main_v79 main_v80
  let main_c_31 : IVec S_ 1 := constantI S_ 1 1#1
  let main_v82 : IVec S_ 1 := (fun x v => Host.reduce IntOp.andi x v reducesTo_S256x1024_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S256x1024 .f32) (main_arg13 : FVec F S256 .f32) (main_arg14 : FVec F S1024x576 .f32) (main_arg15 : FVec F S1024 .f32) (main_arg16 : FVec F S256x1024 .f32) (main_arg17 : FVec F S256 .f32) (main_v48 : IVec S_ 1) (main_v49 : FVec F S1024x576 .f32) (main_v50 : FVec F S1024x576 .f32) : IVec S_ 1 :=
  let main_v51 : IVec S1024x576 1 := cmpf .olt main_v49 main_v50
  let main_c_19 : IVec S_ 1 := constantI S_ 1 1#1
  let main_v52 : IVec S_ 1 := (fun x v => Host.reduce IntOp.andi x v reducesTo_S1024x576_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S256x1024 .f32 := Host.absf main_arg12
  let main_cst_22 : FVec F S_ .f32 := constant S_ .f32 0x7F800000#32
  let main_v60 : FVec F S256x1024 .f32 := broadcastInDim S256x1024 ![] bcast_S_S256x1024 main_cst_22
  let main_v61 : IVec S256x1024 1 := cmpf .olt main_v59 main_v60
  let main_c_23 : IVec S_ 1 := constantI S_ 1 1#1
  let main_v62 : IVec S_ 1 := (fun x v => Host.reduce IntOp.andi x v reducesTo_S256x1024_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S3072x1024 .f32) (main_arg8 : FVec F S3072 .f32) (main_arg9 : FVec F S3072 .f32) (main_arg10 : FVec F S1024x576 .f32) (main_arg11 : FVec F S1024 .f32) (main_arg12 : FVec F S256x1024 .f32) (main_arg13 : FVec F S256 .f32) (main_arg14 : FVec F S1024x576 .f32) (main_arg15 : FVec F S1024 .f32) (main_arg16 : FVec F S256x1024 .f32) (main_arg17 : FVec F S256 .f32) (main_v33 : IVec S_ 1) : IVec S_ 1 :=
  let main_v34 : FVec F S3072x1024 .f32 := Host.absf main_arg7
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072 .f32 := Host.absf main_arg8
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S1024x576 .f32 := Host.absf main_arg10
  let main_cst_18 : FVec F S_ .f32 := constant S_ .f32 0x7F800000#32
  let main_v50 : FVec F S1024x576 .f32 := broadcastInDim S1024x576 ![] bcast_S_S1024x576 main_cst_18
  fn_part3 (F := F) main_arg11 main_arg12 main_arg13 main_arg14 main_arg15 main_arg16 main_arg17 main_v48 main_v49 main_v50

def fn_part1 {F : FTy → Type} [FloatOps F] (main_arg4 : FVec F S16384x64 .f32) (main_arg5 : FVec F S16384x1024 .f32) (main_arg6 : FVec F S3072x194 .f32) (main_arg7 : FVec F S3072x1024 .f32) (main_arg8 : FVec F S3072 .f32) (main_arg9 : FVec F S3072 .f32) (main_arg10 : FVec F S1024x576 .f32) (main_arg11 : FVec F S1024 .f32) (main_arg12 : FVec F S256x1024 .f32) (main_arg13 : FVec F S256 .f32) (main_arg14 : FVec F S1024x576 .f32) (main_arg15 : FVec F S1024 .f32) (main_arg16 : FVec F S256x1024 .f32) (main_arg17 : FVec F S256 .f32) (main_v13 : IVec S_ 1) (main_v16 : IVec S16384x64 1) : IVec S_ 1 :=
  let main_c_5 : IVec S_ 1 := constantI S_ 1 1#1
  let main_v17 : IVec S_ 1 := (fun x v => Host.reduce IntOp.andi x v reducesTo_S16384x64_S_d0_1 h_S_) main_v16 main_c_5
  let main_v18 : IVec S_ 1 := andi main_v13 main_v17
  let main_v19 : FVec F S16384x64 .f32 := Host.absf main_arg4
  let main_cst_6 : FVec F S_ .f32 := constant S_ .f32 0x7F800000#32
  let main_v20 : FVec F S16384x64 .f32 := broadcastInDim S16384x64 ![] bcast_S_S16384x64 main_cst_6
  let main_v21 : IVec S16384x64 1 := cmpf .olt main_v19 main_v20
  let main_c_7 : IVec S_ 1 := constantI S_ 1 1#1
  let main_v22 : IVec S_ 1 := (fun x v => Host.reduce IntOp.andi x v reducesTo_S16384x64_S_d0_1 h_S_) main_v21 main_c_7
  let main_v23 : IVec S_ 1 := andi main_v18 main_v22
  let main_v24 : FVec F S16384x1024 .f32 := Host.absf main_arg5
  let main_cst_8 : FVec F S_ .f32 := constant S_ .f32 0x7F800000#32
  let main_v25 : FVec F S16384x1024 .f32 := broadcastInDim S16384x1024 ![] bcast_S_S16384x1024 main_cst_8
  let main_v26 : IVec S16384x1024 1 := cmpf .olt main_v24 main_v25
  let main_c_9 : IVec S_ 1 := constantI S_ 1 1#1
  let main_v27 : IVec S_ 1 := (fun x v => Host.reduce IntOp.andi x v reducesTo_S16384x1024_S_d0_1 h_S_) main_v26 main_c_9
  let main_v28 : IVec S_ 1 := andi main_v23 main_v27
  let main_v29 : FVec F S3072x194 .f32 := Host.absf main_arg6
  let main_cst_10 : FVec F S_ .f32 := constant S_ .f32 0x7F800000#32
  let main_v30 : FVec F S3072x194 .f32 := broadcastInDim S3072x194 ![] bcast_S_S3072x194 main_cst_10
  let main_v31 : IVec S3072x194 1 := cmpf .olt main_v29 main_v30
  let main_c_11 : IVec S_ 1 := constantI S_ 1 1#1
  let main_v32 : IVec S_ 1 := (fun x v => Host.reduce IntOp.andi x v reducesTo_S3072x194_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x2 .f32) (main_arg1 : FVec F S16384x128 .f32) (main_arg2 : FVec F S16384x64 .f32) (main_arg3 : FVec F S16384x64 .f32) (main_arg4 : FVec F S16384x64 .f32) (main_arg5 : FVec F S16384x1024 .f32) (main_arg6 : FVec F S3072x194 .f32) (main_arg7 : FVec F S3072x1024 .f32) (main_arg8 : FVec F S3072 .f32) (main_arg9 : FVec F S3072 .f32) (main_arg10 : FVec F S1024x576 .f32) (main_arg11 : FVec F S1024 .f32) (main_arg12 : FVec F S256x1024 .f32) (main_arg13 : FVec F S256 .f32) (main_arg14 : FVec F S1024x576 .f32) (main_arg15 : FVec F S1024 .f32) (main_arg16 : FVec F S256x1024 .f32) (main_arg17 : FVec F S256 .f32) : IVec S_ 1 :=
  let main_v0 : FVec F S16384x2 .f32 := Host.absf main_arg0
  let main_cst : FVec F S_ .f32 := constant S_ .f32 0x7F800000#32
  let main_v1 : FVec F S16384x2 .f32 := broadcastInDim S16384x2 ![] bcast_S_S16384x2 main_cst
  let main_v2 : IVec S16384x2 1 := cmpf .olt main_v0 main_v1
  let main_c : IVec S_ 1 := constantI S_ 1 1#1
  let main_v3 : IVec S_ 1 := (fun x v => Host.reduce IntOp.andi x v reducesTo_S16384x2_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384x64 .f32 := Host.absf main_arg3
  let main_cst_4 : FVec F S_ .f32 := constant S_ .f32 0x7F800000#32
  let main_v15 : FVec F S16384x64 .f32 := broadcastInDim S16384x64 ![] bcast_S_S16384x64 main_cst_4
  let main_v16 : IVec S16384x64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x2 : Shape := ⟨2, ![16384, 2]⟩
abbrev S16384x128 : Shape := ⟨2, ![16384, 128]⟩
abbrev S16384x64 : Shape := ⟨2, ![16384, 64]⟩
abbrev S16384x1024 : Shape := ⟨2, ![16384, 1024]⟩
abbrev S3072x194 : Shape := ⟨2, ![3072, 194]⟩
abbrev S3072x1024 : Shape := ⟨2, ![3072, 1024]⟩
abbrev S3072 : Shape := ⟨1, ![3072]⟩
abbrev S1024x576 : Shape := ⟨2, ![1024, 576]⟩
abbrev S1024 : Shape := ⟨1, ![1024]⟩
abbrev S256x1024 : Shape := ⟨2, ![256, 1024]⟩
abbrev S256 : Shape := ⟨1, ![256]⟩
abbrev S16384x194 : Shape := ⟨2, ![16384, 194]⟩
abbrev S1024x194 : Shape := ⟨2, ![1024, 194]⟩
abbrev S1024x1024 : Shape := ⟨2, ![1024, 1024]⟩
abbrev S194x1024 : Shape := ⟨2, ![194, 1024]⟩
abbrev S1x1024 : Shape := ⟨2, ![1, 1024]⟩
abbrev S576x1024 : Shape := ⟨2, ![576, 1024]⟩
abbrev S1024x256 : Shape := ⟨2, ![1024, 256]⟩
abbrev S1x256 : Shape := ⟨2, ![1, 256]⟩
abbrev S16384x256 : Shape := ⟨2, ![16384, 256]⟩
abbrev S256x194 : Shape := ⟨2, ![256, 194]⟩
abbrev S256x64 : Shape := ⟨2, ![256, 64]⟩
abbrev S256x256 : Shape := ⟨2, ![256, 256]⟩
abbrev S256x512 : Shape := ⟨2, ![256, 512]⟩
abbrev S256x576 : Shape := ⟨2, ![256, 576]⟩

abbrev nBuf : Space → Nat
  | .hbm => 64
  | .vmem => 34
  | .smem => 0
  | _ => 0

abbrev bufTy : (tb : Table) → Fin (tcTables nBuf tb) → BufTy
  | .hbm, ⟨0, _⟩ => ⟨S16384x2, .f32⟩
  | .hbm, ⟨1, _⟩ => ⟨S16384x128, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S16384x1024, .f32⟩
  | .hbm, ⟨6, _⟩ => ⟨S3072x194, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S1024x576, .f32⟩
  | .hbm, ⟨11, _⟩ => ⟨S1024, .f32⟩
  | .hbm, ⟨12, _⟩ => ⟨S256x1024, .f32⟩
  | .hbm, ⟨13, _⟩ => ⟨S256, .f32⟩
  | .hbm, ⟨14, _⟩ => ⟨S1024x576, .f32⟩
  | .hbm, ⟨15, _⟩ => ⟨S1024, .f32⟩
  | .hbm, ⟨16, _⟩ => ⟨S256x1024, .f32⟩
  | .hbm, ⟨17, _⟩ => ⟨S256, .f32⟩
  | .hbm, ⟨18, _⟩ => ⟨S16384x194, .f32⟩
  | .hbm, ⟨19, _⟩ => ⟨S1024x194, .f32⟩
  | .hbm, ⟨20, _⟩ => ⟨S1024x194, .f32⟩
  | .hbm, ⟨21, _⟩ => ⟨S1024x194, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S194x1024, .f32⟩
  | .hbm, ⟨32, _⟩ => ⟨S194x1024, .bf16⟩
  | .hbm, ⟨33, _⟩ => ⟨S194x1024, .f32⟩
  | .hbm, ⟨34, _⟩ => ⟨S194x1024, .bf16⟩
  | .hbm, ⟨35, _⟩ => ⟨S194x1024, .f32⟩
  | .hbm, ⟨36, _⟩ => ⟨S194x1024, .bf16⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .bf16⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S576x1024, .f32⟩
  | .hbm, ⟨50, _⟩ => ⟨S576x1024, .bf16⟩
  | .hbm, ⟨51, _⟩ => ⟨S1024x256, .f32⟩
  | .hbm, ⟨52, _⟩ => ⟨S1024x256, .bf16⟩
  | .hbm, ⟨53, _⟩ => ⟨S576x1024, .f32⟩
  | .hbm, ⟨54, _⟩ => ⟨S576x1024, .bf16⟩
  | .hbm, ⟨55, _⟩ => ⟨S1024x256, .f32⟩
  | .hbm, ⟨56, _⟩ => ⟨S1024x256, .bf16⟩
  | .hbm, ⟨57, _⟩ => ⟨S1x1024, .f32⟩
  | .hbm, ⟨58, _⟩ => ⟨S1x256, .f32⟩
  | .hbm, ⟨59, _⟩ => ⟨S1x1024, .f32⟩
  | .hbm, ⟨60, _⟩ => ⟨S1x256, .f32⟩
  | .hbm, ⟨61, _⟩ => ⟨S16384x256, .f32⟩
  | .hbm, ⟨62, _⟩ => ⟨S16384x256, .f32⟩
  | .hbm, ⟨63, _⟩ => ⟨S16384x1024, .f32⟩
  | .local _ .vmem, ⟨0, _⟩ => ⟨S256x194, .f32⟩
  | .local _ .vmem, ⟨1, _⟩ => ⟨S256x194, .f32⟩
  | .local _ .vmem, ⟨2, _⟩ => ⟨S256x1024, .f32⟩
  | .local _ .vmem, ⟨3, _⟩ => ⟨S256x1024, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S194x1024, .bf16⟩
  | .local _ .vmem, ⟨9, _⟩ => ⟨S194x1024, .bf16⟩
  | .local _ .vmem, ⟨10, _⟩ => ⟨S194x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S576x1024, .bf16⟩
  | .local _ .vmem, ⟨21, _⟩ => ⟨S1x1024, .f32⟩
  | .local _ .vmem, ⟨22, _⟩ => ⟨S1024x256, .bf16⟩
  | .local _ .vmem, ⟨23, _⟩ => ⟨S1x256, .f32⟩
  | .local _ .vmem, ⟨24, _⟩ => ⟨S576x1024, .bf16⟩
  | .local _ .vmem, ⟨25, _⟩ => ⟨S1x1024, .f32⟩
  | .local _ .vmem, ⟨26, _⟩ => ⟨S1024x256, .bf16⟩
  | .local _ .vmem, ⟨27, _⟩ => ⟨S1x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x1024, .f32⟩
  | .local _ .vmem, ⟨33, _⟩ => ⟨S256x1024, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem24_1 : DmaSem sig := 29
abbrev cc0_sem25_0 : DmaSem sig := 30
abbrev cc0_sem25_1 : DmaSem sig := 31
abbrev cc0_sem26_0 : DmaSem sig := 32
abbrev cc0_sem26_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x194 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S194x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S194x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S194x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S576x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S576x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x256 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  concatenates_S16384x128_S16384x64_S16384x2_S16384x194_d1 : Shape.Concatenates [S16384x128, S16384x64, S16384x2] S16384x194 1
  slices_S3072x194_S1024x194_0_0 : S3072x194.Slices ![0, 0] S1024x194
  slices_S3072x194_S1024x194_1024_0 : S3072x194.Slices ![1024, 0] S1024x194
  slices_S3072x194_S1024x194_2048_0 : S3072x194.Slices ![2048, 0] S1024x194
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  transposes_S1024x194_S194x1024_1_0 : S1024x194.Transposes [1, 0] S194x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  transposes_S1024x576_S576x1024_1_0 : S1024x576.Transposes [1, 0] S576x1024
  transposes_S256x1024_S1024x256_1_0 : S256x1024.Transposes [1, 0] S1024x256
  shapeCasts_S256_S1x256 : S256.ShapeCasts S1x256
  inb_S256x194_S256x194_0_0 : ∀ a, (![0, 0] : Fin 2 → Nat) a + S256x194.size a ≤ S256x194.size a
  h_S256x194 : 0 < S256x194.numel
  shapeCasts_S256x194_S256x194 : S256x194.ShapeCasts S256x194
  inb_S256x1024_S256x1024_0_0 : ∀ a, (![0, 0] : Fin 2 → Nat) a + S256x1024.size a ≤ S256x1024.size a
  h_S256x1024 : 0 < S256x1024.numel
  inb_S194x1024_S194x1024_0_0 : ∀ a, (![0, 0] : Fin 2 → Nat) a + S194x1024.size a ≤ S194x1024.size a
  h_S194x1024 : 0 < S194x1024.numel
  shapeCasts_S194x1024_S194x1024 : S194x1024.ShapeCasts S194x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S256x1024_o0_0_S256x512 : S256x1024.Slices ![0, 0] S256x512
  slices_S256x1024_o0_512_S256x512 : S256x1024.Slices ![0, 512] S256x512
  inb_S256x64_S256x64_0_0 : ∀ a, (![0, 0] : Fin 2 → Nat) a + S256x64.size a ≤ S256x64.size a
  h_S256x64 : 0 < S256x64.numel
  concatenates_S256x512_S256x64_S256x576_d1 : Shape.Concatenates [S256x512, S256x64] S256x576 1
  inb_S576x1024_S576x1024_0_0 : ∀ a, (![0, 0] : Fin 2 → Nat) a + S576x1024.size a ≤ S576x1024.size a
  h_S576x1024 : 0 < S576x1024.numel
  shapeCasts_S576x1024_S576x1024 : S576x1024.ShapeCasts S576x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x194_S194x1024_S256x1024_1_0_0_1_n_n_wf : DotDims.WF S256x194 S194x1024 S256x1024 [1] [0] [0] [1] [] []
  dot_S256x1024_S1024x1024_S256x1024_1_0_0_1_n_n_wf : DotDims.WF S256x1024 S1024x1024 S256x1024 [1] [0] [0] [1] [] []
  dot_S256x576_S576x1024_S256x1024_1_0_0_1_n_n_wf : DotDims.WF S256x576 S576x1024 S256x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x194.size a ≤ S16384x194.size a
  hwx0_0 : ∀ i : grid0.Coords, EltTy.bits .f32 = 32 ∨ (Rect.block (s := S16384x194) S256x194.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S16384x64.size a
  hwx0_3 : ∀ i : grid0.Coords, EltTy.bits .f32 = 32 ∨ (Rect.block (s := S16384x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S194x1024.size a ≤ S194x1024.size a
  hwx0_4 : ∀ i : grid0.Coords, EltTy.bits .bf16 = 32 ∨ (Rect.block (s := S194x1024) S194x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S194x1024.size a ≤ S194x1024.size a
  hwx0_5 : ∀ i : grid0.Coords, EltTy.bits .bf16 = 32 ∨ (Rect.block (s := S194x1024) S194x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S194x1024.size a ≤ S194x1024.size a
  hwx0_6 : ∀ i : grid0.Coords, EltTy.bits .bf16 = 32 ∨ (Rect.block (s := S194x1024) S194x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S576x1024.size a ≤ S576x1024.size a
  hwx0_16 : ∀ i : grid0.Coords, EltTy.bits .bf16 = 32 ∨ (Rect.block (s := S576x1024) S576x1024.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1024x256.size a ≤ S1024x256.size a
  hwx0_18 : ∀ i : grid0.Coords, EltTy.bits .bf16 = 32 ∨ (Rect.block (s := S1024x256) S1024x256.size (cc0_transform_18 i) (hinb0_18 i)).WholeWords (EltTy.packing .bf16)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x256.size a ≤ S1x256.size a
  hwx0_19 : ∀ i : grid0.Coords, EltTy.bits .f32 = 32 ∨ (Rect.block (s := S1x256) S1x256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S576x1024.size a ≤ S576x1024.size a
  hwx0_20 : ∀ i : grid0.Coords, EltTy.bits .bf16 = 32 ∨ (Rect.block (s := S576x1024) S576x1024.size (cc0_transform_20 i) (hinb0_20 i)).WholeWords (EltTy.packing .bf16)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x1024.size a ≤ S1x1024.size a
  hwx0_21 : ∀ i : grid0.Coords, EltTy.bits .f32 = 32 ∨ (Rect.block (s := S1x1024) S1x1024.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1024x256.size a ≤ S1024x256.size a
  hwx0_22 : ∀ i : grid0.Coords, EltTy.bits .bf16 = 32 ∨ (Rect.block (s := S1024x256) S1024x256.size (cc0_transform_22 i) (hinb0_22 i)).WholeWords (EltTy.packing .bf16)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S256x256.size a ≤ S16384x256.size a
  hwx0_24 : ∀ i : grid0.Coords, EltTy.bits .f32 = 32 ∨ (Rect.block (s := S16384x256) S256x256.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S16384x256.size a
  hwx0_25 : ∀ i : grid0.Coords, EltTy.bits .f32 = 32 ∨ (Rect.block (s := S16384x256) S256x256.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S256x1024.size a ≤ S16384x1024.size a
  hwx0_26 : ∀ i : grid0.Coords, EltTy.bits .f32 = 32 ∨ (Rect.block (s := S16384x1024) S256x1024.size (cc0_transform_26 i) (hinb0_26 i)).WholeWords (EltTy.packing .f32)

variable [Facts₀]

def dot_S256x194_S194x1024_S256x1024_1_0_0_1_n_n : DotDims S256x194 S194x1024 S256x1024 where
  lhsContracting := [1]
  rhsContracting := [0]
  lhsNonContracting := [0]
  rhsNonContracting := [1]
  lhsBatch := []
  rhsBatch := []
  wf := dot_S256x194_S194x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x576_S576x1024_S256x1024_1_0_0_1_n_n : DotDims S256x576 S576x1024 S256x1024 where
  lhsContracting := [1]
  rhsContracting := [0]
  lhsNonContracting := [0]
  rhsNonContracting := [1]
  lhsBatch := []
  rhsBatch := []
  wf := dot_S256x576_S576x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v0) S256x194.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S194x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S194x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S194x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v30) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v32) S576x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v39) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v34) S1024x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v40) S1x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v36) S576x1024.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v41) S1x1024.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v38) S1024x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v42) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v43_0) S256x256.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v43_1) S256x256.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v43_2) S256x1024.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S16384x2 : Shape := ⟨2, ![16384, 2]⟩
abbrev S16384x128 : Shape := ⟨2, ![16384, 128]⟩
abbrev S16384x64 : Shape := ⟨2, ![16384, 64]⟩
abbrev S16384x1024 : Shape := ⟨2, ![16384, 1024]⟩
abbrev S3072x194 : Shape := ⟨2, ![3072, 194]⟩
abbrev S3072x1024 : Shape := ⟨2, ![3072, 1024]⟩
abbrev S3072 : Shape := ⟨1, ![3072]⟩
abbrev S1024x576 : Shape := ⟨2, ![1024, 576]⟩
abbrev S1024 : Shape := ⟨1, ![1024]⟩
abbrev S256x1024 : Shape := ⟨2, ![256, 1024]⟩
abbrev S256 : Shape := ⟨1, ![256]⟩
abbrev S16384x194 : Shape := ⟨2, ![16384, 194]⟩
abbrev S194x3072 : Shape := ⟨2, ![194, 3072]⟩
abbrev S16384x3072 : Shape := ⟨2, ![16384, 3072]⟩
abbrev S1x3072 : Shape := ⟨2, ![1, 3072]⟩
abbrev S1024x3072 : Shape := ⟨2, ![1024, 3072]⟩
abbrev S_ : Shape := ⟨0, ![]⟩
abbrev S16384x512 : Shape := ⟨2, ![16384, 512]⟩
abbrev S16384x576 : Shape := ⟨2, ![16384, 576]⟩
abbrev S576x1024 : Shape := ⟨2, ![576, 1024]⟩
abbrev S1x1024 : Shape := ⟨2, ![1, 1024]⟩
abbrev S1024x256 : Shape := ⟨2, ![1024, 256]⟩
abbrev S16384x256 : Shape := ⟨2, ![16384, 256]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S16384x2, .f32⟩
  | .hbm, ⟨1, _⟩ => ⟨S16384x128, .f32⟩
  | .hbm, ⟨2, _⟩ => ⟨S16384x64, .f32⟩
  | .hbm, ⟨3, _⟩ => ⟨S16384x64, .f32⟩
  | .hbm, ⟨4, _⟩ => ⟨S16384x64, .f32⟩
  | .hbm, ⟨5, _⟩ => ⟨S16384x1024, .f32⟩
  | .hbm, ⟨6, _⟩ => ⟨S3072x194, .f32⟩
  | .hbm, ⟨7, _⟩ => ⟨S3072x1024, .f32⟩
  | .hbm, ⟨8, _⟩ => ⟨S3072, .f32⟩
  | .hbm, ⟨9, _⟩ => ⟨S3072, .f32⟩
  | .hbm, ⟨10, _⟩ => ⟨S1024x576, .f32⟩
  | .hbm, ⟨11, _⟩ => ⟨S1024, .f32⟩
  | .hbm, ⟨12, _⟩ => ⟨S256x1024, .f32⟩
  | .hbm, ⟨13, _⟩ => ⟨S256, .f32⟩
  | .hbm, ⟨14, _⟩ => ⟨S1024x576, .f32⟩
  | .hbm, ⟨15, _⟩ => ⟨S1024, .f32⟩
  | .hbm, ⟨16, _⟩ => ⟨S256x1024, .f32⟩
  | .hbm, ⟨17, _⟩ => ⟨S256, .f32⟩
  | .hbm, ⟨18, _⟩ => ⟨S16384x194, .f32⟩
  | .hbm, ⟨19, _⟩ => ⟨S194x3072, .f32⟩
  | .hbm, ⟨20, _⟩ => ⟨S16384x3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S1024x3072, .f32⟩
  | .hbm, ⟨25, _⟩ => ⟨S16384x3072, .f32⟩
  | .hbm, ⟨26, _⟩ => ⟨S1x3072, .f32⟩
  | .hbm, ⟨27, _⟩ => ⟨S16384x3072, .f32⟩
  | .hbm, ⟨28, _⟩ => ⟨S16384x3072, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x512, .f32⟩
  | .hbm, ⟨63, _⟩ => ⟨S16384x512, .f32⟩
  | .hbm, ⟨64, _⟩ => ⟨S16384x576, .f32⟩
  | .hbm, ⟨65, _⟩ => ⟨S576x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S16384x1024, .f32⟩
  | .hbm, ⟨72, _⟩ => ⟨S16384x1024, .f32⟩
  | .hbm, ⟨73, _⟩ => ⟨S1024x256, .f32⟩
  | .hbm, ⟨74, _⟩ => ⟨S16384x256, .f32⟩
  | .hbm, ⟨75, _⟩ => ⟨S1x256, .f32⟩
  | .hbm, ⟨76, _⟩ => ⟨S16384x256, .f32⟩
  | .hbm, ⟨77, _⟩ => ⟨S16384x256, .f32⟩
  | .hbm, ⟨78, _⟩ => ⟨S16384x576, .f32⟩
  | .hbm, ⟨79, _⟩ => ⟨S576x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384x1024, .f32⟩
  | .hbm, ⟨86, _⟩ => ⟨S16384x1024, .f32⟩
  | .hbm, ⟨87, _⟩ => ⟨S1024x256, .f32⟩
  | .hbm, ⟨88, _⟩ => ⟨S16384x256, .f32⟩
  | .hbm, ⟨89, _⟩ => ⟨S1x256, .f32⟩
  | .hbm, ⟨90, _⟩ => ⟨S16384x256, .f32⟩
  | .hbm, ⟨91, _⟩ => ⟨S16384x256, .f32⟩
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_cst_0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_1 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_3 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call0_cst : Ref sig .tc := ⟨.hbm, 70, rfl⟩
abbrev main_call0_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  concatenates_S16384x128_S16384x64_S16384x2_S16384x194_d1 : Shape.Concatenates [S16384x128, S16384x64, S16384x2] S16384x194 1
  transposes_S3072x194_S194x3072_1_0 : S3072x194.Transposes [1, 0] S194x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  transposes_S3072x1024_S1024x3072_1_0 : S3072x1024.Transposes [1, 0] S1024x3072
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  slices_S16384x1024_S16384x512_0_0 : S16384x1024.Slices ![0, 0] S16384x512
  slices_S16384x1024_S16384x512_0_512 : S16384x1024.Slices ![0, 512] S16384x512
  concatenates_S16384x512_S16384x64_S16384x576_d1 : Shape.Concatenates [S16384x512, S16384x64] S16384x576 1
  transposes_S1024x576_S576x1024_1_0 : S1024x576.Transposes [1, 0] S576x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  transposes_S256x1024_S1024x256_1_0 : S256x1024.Transposes [1, 0] S1024x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x194_S194x3072_S16384x3072_1_0_0_1_n_n_wf : DotDims.WF S16384x194 S194x3072 S16384x3072 [1] [0] [0] [1] [] []
  dot_S16384x1024_S1024x3072_S16384x3072_1_0_0_1_n_n_wf : DotDims.WF S16384x1024 S1024x3072 S16384x3072 [1] [0] [0] [1] [] []
  dot_S16384x576_S576x1024_S16384x1024_1_0_0_1_n_n_wf : DotDims.WF S16384x576 S576x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x194_S194x3072_S16384x3072_1_0_0_1_n_n : DotDims S16384x194 S194x3072 S16384x3072 where
  lhsContracting := [1]
  rhsContracting := [0]
  lhsNonContracting := [0]
  rhsNonContracting := [1]
  lhsBatch := []
  rhsBatch := []
  wf := dot_S16384x194_S194x3072_S16384x3072_1_0_0_1_n_n_wf
def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def dot_S16384x576_S576x1024_S16384x1024_1_0_0_1_n_n : DotDims S16384x576 S576x1024 S16384x1024 where
  lhsContracting := [1]
  rhsContracting := [0]
  lhsNonContracting := [0]
  rhsNonContracting := [1]
  lhsBatch := []
  rhsBatch := []
  wf := dot_S16384x576_S576x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.KEntry.lean ====
/-
  The program up to its one kernel launch, and what the launch's windows see.

  Forty-three host operations run first: the three feature arrays are joined along the feature axis, the stacked gate
  weights and biases are cut into their three bands, each weight band is transposed, and the biases are laid out as
  single rows. None of them writes an argument array, so the launch finds every argument as it was. A window's block at a
  grid point is a rectangle of its array as the launch finds it: rows `256 t … 256 t + 255` for the four batch-tiled
  operands, the whole array for the resident weights and biases.
-/
import proofs.«133260_j481036337285_1_alg».proof.Proof.Gen.Kernel.Launch
import proofs.«133260_j481036337285_1_alg».proof.Proof.Gen.Kernel.Skeleton
import proofs.«133260_j481036337285_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core `c`'s buffers when the launch is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether it was fetched there or stays
    resident from the first point: for any proof data whose arrays are the launch-entry contents and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- From a run whose final state has every window's array at what the proof data computes and every other buffer as
    the launch found it, every argument array ends as it started: the three arguments that are windows themselves are
    inputs, never written back; the others are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 1).trans (((dats 0 c).arrAt_in 1 rfl _).trans ((hA c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

end Cert.Kernel.Hand

end
-- ==== Proof.KBody.lean ====
/-
  The kernel body on one block of 256 batch rows.

  The body reads its 24 input blocks whole — the joined input features, the hidden state, the two heads' auxiliary
  features, and the weight and bias blocks — and overwrites its three output blocks whole: the new hidden state, and the
  two heads' outputs. Each output block is therefore ONE function of the input blocks, named here; what the body reads
  out of an output block before overwriting it is never used. The body's triple says exactly that: the input blocks are
  handed back as they were, and each output block holds its function of them.
-/
import proofs.«133260_j481036337285_1_alg».proof.Proof.Gen.Kernel.Launch
import proofs.«133260_j481036337285_1_alg».proof.Proof.Gen.Kernel.Skeleton
import proofs.«133260_j481036337285_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three output blocks as functions of the input blocks -/

/-- The new hidden block: the three input-side gates from the feature block, the three hidden-side gates from the
    hidden block, combined entry by entry. -/
def hiddenBlock (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x1024 .f32 :=
  k0_pay9 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
    (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0))

/-- The first head's output block: the lower half of the new hidden block with the first auxiliary block. -/
def headBlock0 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x256 .f32 :=
  k0_pay1 (k0_pay11 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
      (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0))
      (View.ld x2 (Rect.unit (s := S256x64) ![0, 0] S256x64.size inb_S256x64_S256x64_0_0)) (View.ld x16 (Rect.unit (s := S576x1024) ![0, 0] S576x1024.size inb_S576x1024_S576x1024_0_0)) (View.ld x17 (Rect.unit (s := S1x1024) ![0, 0] S1x1024.size inb_S1x1024_S1x1024_0_0)))
    (k0_pay12 (F := F)) (View.ld x18 (Rect.unit (s := S1024x256) ![0, 0] S1024x256.size inb_S1024x256_S1024x256_0_0)) (View.ld x19 (Rect.unit (s := S1x256) ![0, 0] S1x256.size inb_S1x256_S1x256_0_0))

/-- The second head's output block: the upper half of the new hidden block with the second auxiliary block. -/
def headBlock1 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x256 .f32 :=
  k0_pay2 (k0_pay10 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
      (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0)))
    (View.ld x3 (Rect.unit (s := S256x64) ![0, 0] S256x64.size inb_S256x64_S256x64_0_0)) (View.ld x20 (Rect.unit (s := S576x1024) ![0, 0] S576x1024.size inb_S576x1024_S576x1024_0_0)) (View.ld x21 (Rect.unit (s := S1x1024) ![0, 0] S1x1024.size inb_S1x1024_S1x1024_0_0)) (View.ld x22 (Rect.unit (s := S1024x256) ![0, 0] S1024x256.size inb_S1024x256_S1024x256_0_0)) (View.ld x23 (Rect.unit (s := S1x256) ![0, 0] S1x256.size inb_S1x256_S1x256_0_0))

/-- What each output's buffer holds after the body: its one whole-block store. -/
def out24 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x256 .f32 := View.canon [⟨(Rect.unit (s := S256x256) ![0, 0] S256x256.size inb_S256x256_S256x256_0_0), headBlock0 x0 x1 x2 x3 x4 x5 x6 x7 x8 x9 x10 x11 x12 x13 x14 x15 x16 x17 x18 x19 x20 x21 x22 x23⟩]
def out25 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x256 .f32 := View.canon [⟨(Rect.unit (s := S256x256) ![0, 0] S256x256.size inb_S256x256_S256x256_0_0), headBlock1 x0 x1 x2 x3 x4 x5 x6 x7 x8 x9 x10 x11 x12 x13 x14 x15 x16 x17 x18 x19 x20 x21 x22 x23⟩]
def out26 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x1024 .f32 := View.canon [⟨(Rect.unit (s := S256x1024) ![0, 0] S256x1024.size inb_S256x1024_S256x1024_0_0), hiddenBlock x0 x1 x2 x3 x4 x5 x6 x7 x8 x9 x10 x11 x12 x13 x14 x15 x16 x17 x18 x19 x20 x21 x22 x23⟩]

/-- A store of the whole block covers the block. -/
theorem cover256 (p0 : Vec F S256x256 .f32) (y : S256x256.Idx) :
    ∃ pc ∈ ([⟨(Rect.unit (s := S256x256) ![0, 0] S256x256.size inb_S256x256_S256x256_0_0), p0⟩] : List (View.Piece (Elt F) S256x256 .f32)), y ∈ pc.1.set :=
  View.cover_of_tiled [⟨(Rect.unit (s := S256x256) ![0, 0] S256x256.size inb_S256x256_S256x256_0_0), p0⟩] S256x256.size (by rfl) y
theorem cover1024 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-! ## The body's triple -/

set_option maxHeartbeats 4000000 in
/-- On whole staging buffers, the inputs' at known contents and the outputs' at anything, the body runs to a
    continuation that holds the inputs' as they were and each output's at its function of the inputs. -/
theorem sound_kernel (c : Dev nD) (E : Set ℕ) (i : grid0.Coords) (a0 : Memref sig .tc .vmem S256x194 .f32) (h0 : a0.IsWhole) (a1 : Memref sig .tc .vmem S256x1024 .f32) (h1 : a1.IsWhole) (a2 : Memref sig .tc .vmem S256x64 .f32) (h2 : a2.IsWhole) (a3 : Memref sig .tc .vmem S256x64 .f32) (h3 : a3.IsWhole) (a4 : Memref sig .tc .vmem S194x1024 .bf16) (h4 : a4.IsWhole) (a5 : Memref sig .tc .vmem S194x1024 .bf16) (h5 : a5.IsWhole) (a6 : Memref sig .tc .vmem S194x1024 .bf16) (h6 : a6.IsWhole) (a7 : Memref sig .tc .vmem S1024x1024 .bf16) (h7 : a7.IsWhole) (a8 : Memref sig .tc .vmem S1024x1024 .bf16) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S1x1024 .f32) (h15 : a15.IsWhole) (a16 : Memref sig .tc .vmem S576x1024 .bf16) (h16 : a16.IsWhole) (a17 : Memref sig .tc .vmem S1x1024 .f32) (h17 : a17.IsWhole) (a18 : Memref sig .tc .vmem S1024x256 .bf16) (h18 : a18.IsWhole) (a19 : Memref sig .tc .vmem S1x256 .f32) (h19 : a19.IsWhole) (a20 : Memref sig .tc .vmem S576x1024 .bf16) (h20 : a20.IsWhole) (a21 : Memref sig .tc .vmem S1x1024 .f32) (h21 : a21.IsWhole) (a22 : Memref sig .tc .vmem S1024x256 .bf16) (h22 : a22.IsWhole) (a23 : Memref sig .tc .vmem S1x256 .f32) (h23 : a23.IsWhole) (a24 : Memref sig .tc .vmem S256x256 .f32) (h24 : a24.IsWhole) (a25 : Memref sig .tc .vmem S256x256 .f32) (h25 : a25.IsWhole) (a26 : Memref sig .tc .vmem S256x1024 .f32) (h26 : a26.IsWhole)
    (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ (∃ d, owns (c : Thread nD τ) a24 fullShare d) ∗ (∃ d, owns (c : Thread nD τ) a25 fullShare d) ∗ (∃ d, owns (c : Thread nD τ) a26 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare (out24 x0 x1 x2 x3 x4 x5 x6 x7 x8 x9 x10 x11 x12 x13 x14 x15 x16 x17 x18 x19 x20 x21 x22 x23) ∗ owns (c : Thread nD τ) a25 fullShare (out25 x0 x1 x2 x3 x4 x5 x6 x7 x8 x9 x10 x11 x12 x13 x14 x15 x16 x17 x18 x19 x20 x21 x22 x23) ∗ owns (c : Thread nD τ) a26 fullShare (out26 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0__wavernn_kernel i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K := by
  simp only [cc0__wavernn_kernel_eq_skeleton]; unfold cc0__wavernn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover256 _)
  isplitl [H25]
  · iexists _; isplitr
    swap; · iexact H25
    ipureintro
    exact View.read_writes_eq_canon _ _ _ (cover256 _)
  iexists _; isplitr
  swap; · iexact H26
  ipureintro
  exact View.read_writes_eq_canon _ _ _ (cover1024 _)

end Cert.Kernel.Hand

end
-- ==== Proof.KRun.lean ====
/-
  The launch run through: at every grid point the body finds each input window's staging buffer at that window's block
  and leaves each output window's at its function of the input blocks; the library's one-region launch theorem then
  gives the whole program's run, with every window's array named at the end. The frame is read off it.
-/
import proofs.«133260_j481036337285_1_alg».proof.Proof.KEntry
import proofs.«133260_j481036337285_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input's buffer at its block, the
    two heads' buffers and the new hidden state's at their functions of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨25, _⟩ => out25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨26, _⟩ => out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = out24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after25 (c : Dev nD) (t : Fin cfg0.N) : (dats m 0 c).after 25 t = out25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after26 (c : Dev nD) (t : Fin cfg0.N) : (dats m 0 c).after 26 t = out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d
theorem before18 (c : Dev nD) (t : Fin cfg0.N) (d) : (dats m 0 c).before 18 t d = iblk m c 18 t :=
  before18_of m (dats m 0 c) (A_eq m c 18) (after18 m c) t d
theorem before19 (c : Dev nD) (t : Fin cfg0.N) (d) : (dats m 0 c).before 19 t d = iblk m c 19 t :=
  before19_of m (dats m 0 c) (A_eq m c 19) (after19 m c) t d
theorem before20 (c : Dev nD) (t : Fin cfg0.N) (d) : (dats m 0 c).before 20 t d = iblk m c 20 t :=
  before20_of m (dats m 0 c) (A_eq m c 20) (after20 m c) t d
theorem before21 (c : Dev nD) (t : Fin cfg0.N) (d) : (dats m 0 c).before 21 t d = iblk m c 21 t :=
  before21_of m (dats m 0 c) (A_eq m c 21) (after21 m c) t d
theorem before22 (c : Dev nD) (t : Fin cfg0.N) (d) : (dats m 0 c).before 22 t d = iblk m c 22 t :=
  before22_of m (dats m 0 c) (A_eq m c 22) (after22 m c) t d
theorem before23 (c : Dev nD) (t : Fin cfg0.N) (d) : (dats m 0 c).before 23 t d = iblk m c 23 t :=
  before23_of m (dats m 0 c) (A_eq m c 23) (after23 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and every argument array ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.KIEntry.lean ====
/-
  The program up to its one kernel launch, and what the launch's windows see.

  Forty-three host operations run first: the three feature arrays are joined along the feature axis, the stacked gate
  weights and biases are cut into their three bands, each weight band is transposed, and the biases are laid out as
  single rows. None of them writes an argument array, so the launch finds every argument as it was. A window's block at a
  grid point is a rectangle of its array as the launch finds it: rows `256 t … 256 t + 255` for the four batch-tiled
  operands, the whole array for the resident weights and biases.
-/
import proofs.«133260_j481036337285_1_alg».proof.Proof.Gen.KernelIdeal.Launch
import proofs.«133260_j481036337285_1_alg».proof.Proof.Gen.KernelIdeal.Skeleton
import proofs.«133260_j481036337285_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the launch -/

/-- Core `c`'s buffers when the launch is entered: after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations and then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether it was fetched there or stays
    resident from the first point: for any proof data whose arrays are the launch-entry contents and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame from a run that names every array -/

/-- From a run whose final state has every window's array at what the proof data computes and every other buffer as
    the launch found it, every argument array ends as it started: the three arguments that are windows themselves are
    inputs, never written back; the others are no window's array. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 1).trans (((dats 0 c).arrAt_in 1 rfl _).trans ((hA c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

end Cert.KernelIdeal.Hand

end
-- ==== Proof.KIBody.lean ====
/-
  The kernel body on one block of 256 batch rows.

  The body reads its 24 input blocks whole — the joined input features, the hidden state, the two heads' auxiliary
  features, and the weight and bias blocks — and overwrites its three output blocks whole: the new hidden state, and the
  two heads' outputs. Each output block is therefore ONE function of the input blocks, named here; what the body reads
  out of an output block before overwriting it is never used. The body's triple says exactly that: the input blocks are
  handed back as they were, and each output block holds its function of them.
-/
import proofs.«133260_j481036337285_1_alg».proof.Proof.Gen.KernelIdeal.Launch
import proofs.«133260_j481036337285_1_alg».proof.Proof.Gen.KernelIdeal.Skeleton
import proofs.«133260_j481036337285_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three output blocks as functions of the input blocks -/

/-- The new hidden block: the three input-side gates from the feature block, the three hidden-side gates from the
    hidden block, combined entry by entry. -/
def hiddenBlock (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x1024 .f32 :=
  k0_pay9 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
    (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0))

/-- The first head's output block: the lower half of the new hidden block with the first auxiliary block. -/
def headBlock0 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x256 .f32 :=
  k0_pay1 (k0_pay11 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
      (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0))
      (View.ld x2 (Rect.unit (s := S256x64) ![0, 0] S256x64.size inb_S256x64_S256x64_0_0)) (View.ld x16 (Rect.unit (s := S576x1024) ![0, 0] S576x1024.size inb_S576x1024_S576x1024_0_0)) (View.ld x17 (Rect.unit (s := S1x1024) ![0, 0] S1x1024.size inb_S1x1024_S1x1024_0_0)))
    (k0_pay12 (F := F)) (View.ld x18 (Rect.unit (s := S1024x256) ![0, 0] S1024x256.size inb_S1024x256_S1024x256_0_0)) (View.ld x19 (Rect.unit (s := S1x256) ![0, 0] S1x256.size inb_S1x256_S1x256_0_0))

/-- The second head's output block: the upper half of the new hidden block with the second auxiliary block. -/
def headBlock1 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : FVec F S256x256 .f32 :=
  k0_pay2 (k0_pay10 (View.ld x1 (Rect.unit (s := S256x1024) ![0, 0] S256x1024.size inb_S256x1024_S256x1024_0_0)) (k0_pay4 (View.ld x1 (Rect.unit (s := S256x1024) ![0, 0] S256x1024.size inb_S256x1024_S256x1024_0_0))) (k0_pay5 (View.ld x0 (Rect.unit (s := S256x194) ![0, 0] S256x194.size inb_S256x194_S256x194_0_0)) (View.ld x4 (Rect.unit (s := S194x1024) ![0, 0] S194x1024.size inb_S194x1024_S194x1024_0_0)) (View.ld x10 (Rect.unit (s := S1x1024) ![0, 0] S1x1024.size inb_S1x1024_S1x1024_0_0))) (k0_pay6 (View.ld x0 (Rect.unit (s := S256x194) ![0, 0] S256x194.size inb_S256x194_S256x194_0_0)) (View.ld x5 (Rect.unit (s := S194x1024) ![0, 0] S194x1024.size inb_S194x1024_S194x1024_0_0)) (View.ld x11 (Rect.unit (s := S1x1024) ![0, 0] S1x1024.size inb_S1x1024_S1x1024_0_0)))
      (k0_pay7 (View.ld x0 (Rect.unit (s := S256x194) ![0, 0] S256x194.size inb_S256x194_S256x194_0_0)) (View.ld x6 (Rect.unit (s := S194x1024) ![0, 0] S194x1024.size inb_S194x1024_S194x1024_0_0)) (View.ld x12 (Rect.unit (s := S1x1024) ![0, 0] S1x1024.size inb_S1x1024_S1x1024_0_0))) (k0_pay8 (View.ld x1 (Rect.unit (s := S256x1024) ![0, 0] S256x1024.size inb_S256x1024_S256x1024_0_0)) (View.ld x7 (Rect.unit (s := S1024x1024) ![0, 0] S1024x1024.size inb_S1024x1024_S1024x1024_0_0)) (View.ld x13 (Rect.unit (s := S1x1024) ![0, 0] S1x1024.size inb_S1x1024_S1x1024_0_0))) (View.ld x8 (Rect.unit (s := S1024x1024) ![0, 0] S1024x1024.size inb_S1024x1024_S1024x1024_0_0)) (View.ld x14 (Rect.unit (s := S1x1024) ![0, 0] S1x1024.size inb_S1x1024_S1x1024_0_0)) (View.ld x9 (Rect.unit (s := S1024x1024) ![0, 0] S1024x1024.size inb_S1024x1024_S1024x1024_0_0)) (View.ld x15 (Rect.unit (s := S1x1024) ![0, 0] S1x1024.size inb_S1x1024_S1x1024_0_0)))
    (View.ld x3 (Rect.unit (s := S256x64) ![0, 0] S256x64.size inb_S256x64_S256x64_0_0)) (View.ld x20 (Rect.unit (s := S576x1024) ![0, 0] S576x1024.size inb_S576x1024_S576x1024_0_0)) (View.ld x21 (Rect.unit (s := S1x1024) ![0, 0] S1x1024.size inb_S1x1024_S1x1024_0_0)) (View.ld x22 (Rect.unit (s := S1024x256) ![0, 0] S1024x256.size inb_S1024x256_S1024x256_0_0)) (View.ld x23 (Rect.unit (s := S1x256) ![0, 0] S1x256.size inb_S1x256_S1x256_0_0))

/-- What each output's buffer holds after the body: its one whole-block store. -/
def out24 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x256 .f32 := View.canon [⟨(Rect.unit (s := S256x256) ![0, 0] S256x256.size inb_S256x256_S256x256_0_0), headBlock0 x0 x1 x2 x3 x4 x5 x6 x7 x8 x9 x10 x11 x12 x13 x14 x15 x16 x17 x18 x19 x20 x21 x22 x23⟩]
def out25 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x256 .f32 := View.canon [⟨(Rect.unit (s := S256x256) ![0, 0] S256x256.size inb_S256x256_S256x256_0_0), headBlock1 x0 x1 x2 x3 x4 x5 x6 x7 x8 x9 x10 x11 x12 x13 x14 x15 x16 x17 x18 x19 x20 x21 x22 x23⟩]
def out26 (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) : Vec F S256x1024 .f32 := View.canon [⟨(Rect.unit (s := S256x1024) ![0, 0] S256x1024.size inb_S256x1024_S256x1024_0_0), hiddenBlock x0 x1 x2 x3 x4 x5 x6 x7 x8 x9 x10 x11 x12 x13 x14 x15 x16 x17 x18 x19 x20 x21 x22 x23⟩]

/-- A store of the whole block covers the block. -/
theorem cover256 (p0 : Vec F S256x256 .f32) (y : S256x256.Idx) :
    ∃ pc ∈ ([⟨(Rect.unit (s := S256x256) ![0, 0] S256x256.size inb_S256x256_S256x256_0_0), p0⟩] : List (View.Piece (Elt F) S256x256 .f32)), y ∈ pc.1.set :=
  View.cover_of_tiled [⟨(Rect.unit (s := S256x256) ![0, 0] S256x256.size inb_S256x256_S256x256_0_0), p0⟩] S256x256.size (by rfl) y
theorem cover1024 (p0 : Vec F S256x1024 .f32) (y : S256x1024.Idx) :
    ∃ pc ∈ ([⟨(Rect.unit (s := S256x1024) ![0, 0] S256x1024.size inb_S256x1024_S256x1024_0_0), p0⟩] : List (View.Piece (Elt F) S256x1024 .f32)), y ∈ pc.1.set :=
  View.cover_of_tiled [⟨(Rect.unit (s := S256x1024) ![0, 0] S256x1024.size inb_S256x1024_S256x1024_0_0), p0⟩] S256x1024.size (by rfl) y

/-! ## The body's triple -/

set_option maxHeartbeats 4000000 in
/-- On whole staging buffers, the inputs' at known contents and the outputs' at anything, the body runs to a
    continuation that holds the inputs' as they were and each output's at its function of the inputs. -/
theorem sound_kernel (c : Dev nD) (E : Set ℕ) (i : grid0.Coords) (a0 : Memref sig .tc .vmem S256x194 .f32) (h0 : a0.IsWhole) (a1 : Memref sig .tc .vmem S256x1024 .f32) (h1 : a1.IsWhole) (a2 : Memref sig .tc .vmem S256x64 .f32) (h2 : a2.IsWhole) (a3 : Memref sig .tc .vmem S256x64 .f32) (h3 : a3.IsWhole) (a4 : Memref sig .tc .vmem S194x1024 .bf16) (h4 : a4.IsWhole) (a5 : Memref sig .tc .vmem S194x1024 .bf16) (h5 : a5.IsWhole) (a6 : Memref sig .tc .vmem S194x1024 .bf16) (h6 : a6.IsWhole) (a7 : Memref sig .tc .vmem S1024x1024 .bf16) (h7 : a7.IsWhole) (a8 : Memref sig .tc .vmem S1024x1024 .bf16) (h8 : a8.IsWhole) (a9 : Memref sig .tc .vmem S1024x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (a14 : Memref sig .tc .vmem S1x1024 .f32) (h14 : a14.IsWhole) (a15 : Memref sig .tc .vmem S1x1024 .f32) (h15 : a15.IsWhole) (a16 : Memref sig .tc .vmem S576x1024 .bf16) (h16 : a16.IsWhole) (a17 : Memref sig .tc .vmem S1x1024 .f32) (h17 : a17.IsWhole) (a18 : Memref sig .tc .vmem S1024x256 .bf16) (h18 : a18.IsWhole) (a19 : Memref sig .tc .vmem S1x256 .f32) (h19 : a19.IsWhole) (a20 : Memref sig .tc .vmem S576x1024 .bf16) (h20 : a20.IsWhole) (a21 : Memref sig .tc .vmem S1x1024 .f32) (h21 : a21.IsWhole) (a22 : Memref sig .tc .vmem S1024x256 .bf16) (h22 : a22.IsWhole) (a23 : Memref sig .tc .vmem S1x256 .f32) (h23 : a23.IsWhole) (a24 : Memref sig .tc .vmem S256x256 .f32) (h24 : a24.IsWhole) (a25 : Memref sig .tc .vmem S256x256 .f32) (h25 : a25.IsWhole) (a26 : Memref sig .tc .vmem S256x1024 .f32) (h26 : a26.IsWhole)
    (x0 : Vec F S256x194 .f32) (x1 : Vec F S256x1024 .f32) (x2 : Vec F S256x64 .f32) (x3 : Vec F S256x64 .f32) (x4 : Vec F S194x1024 .bf16) (x5 : Vec F S194x1024 .bf16) (x6 : Vec F S194x1024 .bf16) (x7 : Vec F S1024x1024 .bf16) (x8 : Vec F S1024x1024 .bf16) (x9 : Vec F S1024x1024 .bf16) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S576x1024 .bf16) (x17 : Vec F S1x1024 .f32) (x18 : Vec F S1024x256 .bf16) (x19 : Vec F S1x256 .f32) (x20 : Vec F S576x1024 .bf16) (x21 : Vec F S1x1024 .f32) (x22 : Vec F S1024x256 .bf16) (x23 : Vec F S1x256 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ (∃ d, owns (c : Thread nD τ) a24 fullShare d) ∗ (∃ d, owns (c : Thread nD τ) a25 fullShare d) ∗ (∃ d, owns (c : Thread nD τ) a26 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare (out24 x0 x1 x2 x3 x4 x5 x6 x7 x8 x9 x10 x11 x12 x13 x14 x15 x16 x17 x18 x19 x20 x21 x22 x23) ∗ owns (c : Thread nD τ) a25 fullShare (out25 x0 x1 x2 x3 x4 x5 x6 x7 x8 x9 x10 x11 x12 x13 x14 x15 x16 x17 x18 x19 x20 x21 x22 x23) ∗ owns (c : Thread nD τ) a26 fullShare (out26 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc0__wavernn_kernel i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26) K := by
  simp only [cc0__wavernn_kernel_eq_skeleton]; unfold cc0__wavernn_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists _; isplitr
    swap; · iexact H24
    ipureintro
    exact View.read_writes_eq_canon _ _ _ (cover256 _)
  isplitl [H25]
  · iexists _; isplitr
    swap; · iexact H25
    ipureintro
    exact View.read_writes_eq_canon _ _ _ (cover256 _)
  iexists _; isplitr
  swap; · iexact H26
  ipureintro
  exact View.read_writes_eq_canon _ _ _ (cover1024 _)

end Cert.KernelIdeal.Hand

end
-- ==== Proof.KIRun.lean ====
/-
  The launch run through: at every grid point the body finds each input window's staging buffer at that window's block
  and leaves each output window's at its function of the input blocks; the library's one-region launch theorem then
  gives the whole program's run, with every window's array named at the end. The frame is read off it.
-/
import proofs.«133260_j481036337285_1_alg».proof.Proof.KIEntry
import proofs.«133260_j481036337285_1_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the launch finds them; after the body at point `t` each input's buffer at its block, the
    two heads' buffers and the new hidden state's at their functions of the input blocks; nothing else kept, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => out24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨25, _⟩ => out25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨26, _⟩ => out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)
    | ⟨_ + 27, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = out24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after25 (c : Dev nD) (t : Fin cfg0.N) : (dats m 0 c).after 25 t = out25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]
theorem after26 (c : Dev nD) (t : Fin cfg0.N) : (dats m 0 c).after 26 t = out26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d
theorem before18 (c : Dev nD) (t : Fin cfg0.N) (d) : (dats m 0 c).before 18 t d = iblk m c 18 t :=
  before18_of m (dats m 0 c) (A_eq m c 18) (after18 m c) t d
theorem before19 (c : Dev nD) (t : Fin cfg0.N) (d) : (dats m 0 c).before 19 t d = iblk m c 19 t :=
  before19_of m (dats m 0 c) (A_eq m c 19) (after19 m c) t d
theorem before20 (c : Dev nD) (t : Fin cfg0.N) (d) : (dats m 0 c).before 20 t d = iblk m c 20 t :=
  before20_of m (dats m 0 c) (A_eq m c 20) (after20 m c) t d
theorem before21 (c : Dev nD) (t : Fin cfg0.N) (d) : (dats m 0 c).before 21 t d = iblk m c 21 t :=
  before21_of m (dats m 0 c) (A_eq m c 21) (after21 m c) t d
theorem before22 (c : Dev nD) (t : Fin cfg0.N) (d) : (dats m 0 c).before 22 t d = iblk m c 22 t :=
  before22_of m (dats m 0 c) (A_eq m c 22) (after22 m c) t d
theorem before23 (c : Dev nD) (t : Fin cfg0.N) (d) : (dats m 0 c).before 23 t d = iblk m c 23 t :=
  before23_of m (dats m 0 c) (A_eq m c 23) (after23 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 4000000 in
/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every window's array at what the proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, nothing faults, and every argument array ends as it started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.Spec.lean ====
/-
  What one step of the recurrent cell and its two output heads compute, row by row, on the extended reals.

  A batch row enters as its 194 input features `x` and its 1024 hidden values `h`. Each of the three gates is an
  affine map of `x` plus an affine map of `h` (a sum of products over the feature axis, plus a bias):
  `r = σ(Aᵣx + Bᵣh)`, `z = σ(A_z x + B_z h)`, `n = tanh(Aₙx + r · Bₙh)`, and the new hidden value is
  `(1 − z) · n + z · h`. Each head takes half of the new hidden row, appends 64 auxiliary features, applies an affine map
  followed by a maximum with zero, and a second affine map.

  Everything here is a function of ROWS and of weights given entry by entry, so the same definitions describe a block
  of 256 batch rows and the whole batch of 16384.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The single-precision word of one, read as an extended real. -/
def one : EReal := Ideal.ofBits .f32 0x3F800000#32
/-- The single-precision word of zero, read as an extended real. -/
def zero : EReal := Ideal.ofBits .f32 0x00000000#32

/-- That word is the number one. -/
theorem one_eq : one = 1 := by
  unfold one; simp [Ideal.ofBits, Ideal.ieee, -EReal.coe_mul]; norm_num

/-- Entry `j` of an affine map: the row against row `j` of the weights, summed over the feature axis, plus the bias. -/
def affineAt {K R : ℕ} (row : Fin K → EReal) (W : Fin R → Fin K → EReal) (bias : Fin R → EReal) (j : Fin R) : EReal :=
  (∑ k : Fin K, row k * W j k) + bias j

/-- Entry `j` of the new hidden row. -/
def gruAt (x : Fin 194 → EReal) (h : Fin 1024 → EReal)
    (Wir Wiz Win : Fin 1024 → Fin 194 → EReal) (Whr Whz Whn : Fin 1024 → Fin 1024 → EReal)
    (bir biz bin bhr bhz bhn : Fin 1024 → EReal) (j : Fin 1024) : EReal :=
  (one - Ideal.logistic (affineAt x Wiz biz j + affineAt h Whz bhz j))
      * Ideal.tanh (affineAt x Win bin j + Ideal.logistic (affineAt x Wir bir j + affineAt h Whr bhr j) * affineAt h Whn bhn j)
    + Ideal.logistic (affineAt x Wiz biz j + affineAt h Whz bhz j) * h j

/-- A head's input row: 512 hidden values, then 64 auxiliary features. -/
def catAt (hh : Fin 512 → EReal) (aux : Fin 64 → EReal) (k : Fin 576) : EReal :=
  if hk : k.val < 512 then hh ⟨k.val, hk⟩ else aux ⟨k.val - 512, by have := k.isLt; omega⟩

/-- Entry `j` of a head's hidden layer: affine, then the maximum with zero. -/
def hiddenAt (cat : Fin 576 → EReal) (W1 : Fin 1024 → Fin 576 → EReal) (b1 : Fin 1024 → EReal) (j : Fin 1024) : EReal :=
  max (affineAt cat W1 b1 j) zero

/-- Entry `j` of a head's output. -/
def headAt (hh : Fin 512 → EReal) (aux : Fin 64 → EReal) (W1 : Fin 1024 → Fin 576 → EReal) (b1 : Fin 1024 → EReal)
    (W2 : Fin 256 → Fin 1024 → EReal) (b2 : Fin 256 → EReal) (j : Fin 256) : EReal :=
  affineAt (hiddenAt (catAt hh aux) W1 b1) W2 b2 j

/-! ## The whole batch, from the program's argument arrays -/

abbrev Mat (a b : ℕ) := FVec Ideal (⟨2, ![a, b]⟩ : Shape) .f32
abbrev Vc (a : ℕ) := FVec Ideal (⟨1, ![a]⟩ : Shape) .f32

/-- Row `1024 g + j` of the stacked gate weights: gate `g`'s row `j`. -/
def grow (g : Fin 3) (j : Fin 1024) : Fin 3072 := ⟨1024 * g.val + j.val, by have := g.isLt; have := j.isLt; omega⟩

/-- Half `s` (0 or 1) of a hidden row. -/
def half (s : Fin 2) (k : Fin 512) : Fin 1024 := ⟨512 * s.val + k.val, by have := s.isLt; have := k.isLt; omega⟩

/-- The new hidden state at batch row `b`, entry `j`: the gates' weights are the three row-bands of the stacked
    weight matrices, the input row is row `b` of the joined features. -/
def newHidden (I : Mat 16384 194) (H : Mat 16384 1024) (Wih : Mat 3072 194) (Whh : Mat 3072 1024) (bih bhh : Vc 3072)
    (b : Fin 16384) (j : Fin 1024) : EReal :=
  gruAt (fun k => I (ix2 b k)) (fun k => H (ix2 b k))
    (fun r k => Wih (ix2 (grow 0 r) k)) (fun r k => Wih (ix2 (grow 1 r) k)) (fun r k => Wih (ix2 (grow 2 r) k))
    (fun r k => Whh (ix2 (grow 0 r) k)) (fun r k => Whh (ix2 (grow 1 r) k)) (fun r k => Whh (ix2 (grow 2 r) k))
    (fun r => bih (ix1 (grow 0 r))) (fun r => bih (ix1 (grow 1 r))) (fun r => bih (ix1 (grow 2 r)))
    (fun r => bhh (ix1 (grow 0 r))) (fun r => bhh (ix1 (grow 1 r))) (fun r => bhh (ix1 (grow 2 r))) j

/-- The new hidden state as an array. -/
def hiddenArr (I : Mat 16384 194) (H : Mat 16384 1024) (Wih : Mat 3072 194) (Whh : Mat 3072 1024) (bih bhh : Vc 3072) :
    Mat 16384 1024 :=
  fun i => newHidden I H Wih Whh bih bhh ⟨(i 0).val, (i 0).isLt⟩ ⟨(i 1).val, (i 1).isLt⟩

theorem hiddenArr_ix2 (I : Mat 16384 194) (H : Mat 16384 1024) (Wih : Mat 3072 194) (Whh : Mat 3072 1024) (bih bhh : Vc 3072)
    (b : Fin 16384) (j : Fin 1024) : hiddenArr I H Wih Whh bih bhh (ix2 b j) = newHidden I H Wih Whh bih bhh b j := rfl

/-- A head's output as an array: half `s` of the new hidden state with the auxiliary features `A`. -/
def headArr (Hn : Fin 16384 → Fin 1024 → EReal) (s : Fin 2) (A : Mat 16384 64) (W1 : Mat 1024 576) (b1 : Vc 1024)
    (W2 : Mat 256 1024) (b2 : Vc 256) : Mat 16384 256 :=
  fun i => headAt (fun k => Hn ⟨(i 0).val, (i 0).isLt⟩ (half s k)) (fun k => A (ix2 ⟨(i 0).val, (i 0).isLt⟩ k))
    (fun r k => W1 (ix2 r k)) (fun r => b1 (ix1 r)) (fun r k => W2 (ix2 r k)) (fun r => b2 (ix1 r)) ⟨(i 1).val, (i 1).isLt⟩

theorem headArr_ix2 (Hn : Fin 16384 → Fin 1024 → EReal) (s : Fin 2) (A : Mat 16384 64) (W1 : Mat 1024 576) (b1 : Vc 1024)
    (W2 : Mat 256 1024) (b2 : Vc 256) (b : Fin 16384) (j : Fin 256) :
    headArr Hn s A W1 b1 W2 b2 (ix2 b j)
      = headAt (fun k => Hn b (half s k)) (fun k => A (ix2 b k)) (fun r k => W1 (ix2 r k)) (fun r => b1 (ix1 r))
          (fun r k => W2 (ix2 r k)) (fun r => b2 (ix1 r)) j := rfl

end Cert.Spec

end
-- ==== Proof.KIBlocksA.lean ====
/-
  The first ten input windows' blocks, entry by entry, in terms of the program's argument arrays.

  The four batch-tiled operands — the joined features, the hidden state and the two auxiliary arrays — are cut into
  blocks of 256 rows: row `p` of the block at grid point `t` is row `256 t + p` of the array. The six gate-weight operands
  stay whole: each is one row-band of a stacked weight matrix, transposed, so its entry `(k, r)` is entry
  `(1024 g + r, k)` of the stacked matrix (the cast to the narrow float format is the identity on extended reals).
-/
import proofs.«133260_j481036337285_1_alg».proof.Proof.KIEntry
import proofs.«133260_j481036337285_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Row `p` of the block at grid point `t` is batch row `256 t + p`. -/
def brow (t : Fin cfg0.N) (p : Fin 256) : Fin 16384 :=
  ⟨256 * t.val + p.val, by have h1 : t.val < 64 := lt_of_lt_of_eq t.isLt N_0; have h2 := p.isLt; omega⟩

/-- The joined input features as the launch finds them. -/
def joined (c : Dev nD) : Cert.Spec.Mat 16384 194 := V m c main_v0

abbrev blk0 (c : Dev nD) (t : Fin cfg0.N) : Vec Ideal S256x194 .f32 := iblk m c 0 t
abbrev blk1 (c : Dev nD) (t : Fin cfg0.N) : Vec Ideal S256x1024 .f32 := iblk m c 1 t
abbrev blk2 (c : Dev nD) (t : Fin cfg0.N) : Vec Ideal S256x64 .f32 := iblk m c 2 t
abbrev blk3 (c : Dev nD) (t : Fin cfg0.N) : Vec Ideal S256x64 .f32 := iblk m c 3 t
abbrev blk4 (c : Dev nD) (t : Fin cfg0.N) : Vec Ideal S194x1024 .bf16 := iblk m c 4 t
abbrev blk5 (c : Dev nD) (t : Fin cfg0.N) : Vec Ideal S194x1024 .bf16 := iblk m c 5 t
abbrev blk6 (c : Dev nD) (t : Fin cfg0.N) : Vec Ideal S194x1024 .bf16 := iblk m c 6 t
abbrev blk7 (c : Dev nD) (t : Fin cfg0.N) : Vec Ideal S1024x1024 .bf16 := iblk m c 7 t
abbrev blk8 (c : Dev nD) (t : Fin cfg0.N) : Vec Ideal S1024x1024 .bf16 := iblk m c 8 t
abbrev blk9 (c : Dev nD) (t : Fin cfg0.N) : Vec Ideal S1024x1024 .bf16 := iblk m c 9 t

/-! ## Where the blocks sit

The block index of each window at each grid point, decided once over the 64 points: the four batch-tiled operands sit at
block (t, 0), the six weight operands at block (0, 0). -/

theorem idx_win0to3 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem idx_win4to9 : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## A row-band of a stacked matrix, transposed and narrowed

Band g is rows 1024 g … 1024 g + 1023; the transpose swaps the two coordinates; the narrowing cast is the identity on
extended reals. So entry (k, r) of the result is entry (1024 g + r, k) of the stacked matrix. -/

theorem gate_band_at {K : ℕ} (o : ℕ) (g : Fin 3) (ho : o = 1024 * g.val) (W : Cert.Spec.Mat 3072 K)
    (hs : (⟨2, ![3072, K]⟩ : Shape).Slices ![o, 0] ⟨2, ![1024, K]⟩)
    (ht : (⟨2, ![1024, K]⟩ : Shape).Transposes [1, 0] ⟨2, ![K, 1024]⟩)
    (hb : FTy.bf16.bits < FTy.f32.bits) (k : Fin K) (r : Fin 1024) :
    (truncf (F := Ideal) .bf16 (transpose ⟨2, ![K, 1024]⟩ [1, 0] (extractStridedSlice ⟨2, ![1024, K]⟩ ![o, 0] W hs) ht) hb
        : FVec Ideal ⟨2, ![K, 1024]⟩ .bf16) (ix2 k r)
      = W (ix2 (Cert.Spec.grow g r) k) :=
  (truncf_apply _ hb (ix2 k r)).trans
    ((transpose_ix2_apply _ ht k r).trans
      (slice2_axis0_apply o W hs r k (Cert.Spec.grow g r) (by subst ho; rfl)))

/-! ## What the launch finds in the six weight operands -/

theorem v14_eq (c : Dev nD) : (V m c main_v14 : S194x1024.Idx → EReal)
    = truncf (F := Ideal) .bf16 (transpose S194x1024 [1, 0] (extractStridedSlice S1024x194 ![0, 0] (m ((c : Thread nD τ).loc main_arg6) : Cert.Spec.Mat 3072 194) slices_S3072x194_S1024x194_0_0) transposes_S1024x194_S194x1024_1_0) bitsLt_bf16_f32 := by
  dsimp only [V, hostOps0]
  after_results <;> rfl
theorem v16_eq (c : Dev nD) : (V m c main_v16 : S194x1024.Idx → EReal)
    = truncf (F := Ideal) .bf16 (transpose S194x1024 [1, 0] (extractStridedSlice S1024x194 ![1024, 0] (m ((c : Thread nD τ).loc main_arg6) : Cert.Spec.Mat 3072 194) slices_S3072x194_S1024x194_1024_0) transposes_S1024x194_S194x1024_1_0) bitsLt_bf16_f32 := by
  dsimp only [V, hostOps0]
  after_results <;> rfl
theorem v18_eq (c : Dev nD) : (V m c main_v18 : S194x1024.Idx → EReal)
    = truncf (F := Ideal) .bf16 (transpose S194x1024 [1, 0] (extractStridedSlice S1024x194 ![2048, 0] (m ((c : Thread nD τ).loc main_arg6) : Cert.Spec.Mat 3072 194) slices_S3072x194_S1024x194_2048_0) transposes_S1024x194_S194x1024_1_0) bitsLt_bf16_f32 := by
  dsimp only [V, hostOps0]
  after_results <;> rfl
theorem v20_eq (c : Dev nD) : (V m c main_v20 : S1024x1024.Idx → EReal)
    = truncf (F := Ideal) .bf16 (transpose S1024x1024 [1, 0] (extractStridedSlice S1024x1024 ![0, 0] (m ((c : Thread nD τ).loc main_arg7) : Cert.Spec.Mat 3072 1024) slices_S3072x1024_S1024x1024_0_0) transposes_S1024x1024_S1024x1024_1_0) bitsLt_bf16_f32 := by
  dsimp only [V, hostOps0]
  after_results <;> rfl
theorem v22_eq (c : Dev nD) : (V m c main_v22 : S1024x1024.Idx → EReal)
    = truncf (F := Ideal) .bf16 (transpose S1024x1024 [1, 0] (extractStridedSlice S1024x1024 ![1024, 0] (m ((c : Thread nD τ).loc main_arg7) : Cert.Spec.Mat 3072 1024) slices_S3072x1024_S1024x1024_1024_0) transposes_S1024x1024_S1024x1024_1_0) bitsLt_bf16_f32 := by
  dsimp only [V, hostOps0]
  after_results <;> rfl
theorem v24_eq (c : Dev nD) : (V m c main_v24 : S1024x1024.Idx → EReal)
    = truncf (F := Ideal) .bf16 (transpose S1024x1024 [1, 0] (extractStridedSlice S1024x1024 ![2048, 0] (m ((c : Thread nD τ).loc main_arg7) : Cert.Spec.Mat 3072 1024) slices_S3072x1024_S1024x1024_2048_0) transposes_S1024x1024_S1024x1024_1_0) bitsLt_bf16_f32 := by
  dsimp only [V, hostOps0]
  after_results <;> rfl

/-! ## The blocks, entry by entry -/

/-- The joined features are the three feature arrays side by side. -/
theorem joined_eq (c : Dev nD) :
    joined m c = concatenate S16384x194 1 [⟨S16384x128, m ((c : Thread nD τ).loc main_arg1)⟩, ⟨S16384x64, m ((c : Thread nD τ).loc main_arg2)⟩, ⟨S16384x2, m ((c : Thread nD τ).loc main_arg0)⟩] concatenates_S16384x128_S16384x64_S16384x2_S16384x194_d1 := by
  unfold joined
  dsimp only [V, hostOps0]
  after_results <;> rfl

theorem blk0_at (c : Dev nD) (t : Fin cfg0.N) (p : Fin 256) (k : Fin 194) :
    blk0 m c t (ix2 p k) = joined m c (ix2 (brow t p) k) := by
  obtain ⟨⟨e0, e1⟩, -⟩ := idx_win0to3 t
  show iblk m c 0 t (ix2 p k) = _
  unfold iblk joined
  rw [View.read_apply]
  show V m c main_v0 _ = V m c main_v0 _
  refine congrArg _ ?_
  funext a; apply Fin.ext
  match a with
  | ⟨0, _⟩ => show win0_0.index t (0 : Fin 2) * 256 + 1 * p.val = 256 * t.val + p.val; rw [e0]; omega
  | ⟨1, _⟩ => show win0_0.index t (1 : Fin 2) * 194 + 1 * k.val = k.val; rw [e1]; omega
theorem blk1_at (c : Dev nD) (t : Fin cfg0.N) (p : Fin 256) (k : Fin 1024) :
    blk1 m c t (ix2 p k) = (m ((c : Thread nD τ).loc main_arg5) : Cert.Spec.Mat 16384 1024) (ix2 (brow t p) k) := by
  obtain ⟨-, ⟨e0, e1⟩, -⟩ := idx_win0to3 t
  show iblk m c 1 t (ix2 p k) = _
  unfold iblk
  rw [View.read_apply]
  show V m c main_arg5 _ = _
  rw [V_main_arg5]
  refine congrArg _ ?_
  funext a; apply Fin.ext
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega
theorem blk2_at (c : Dev nD) (t : Fin cfg0.N) (p : Fin 256) (k : Fin 64) :
    blk2 m c t (ix2 p k) = (m ((c : Thread nD τ).loc main_arg3) : Cert.Spec.Mat 16384 64) (ix2 (brow t p) k) := by
  obtain ⟨-, -, ⟨e0, e1⟩, -⟩ := idx_win0to3 t
  show iblk m c 2 t (ix2 p k) = _
  unfold iblk
  rw [View.read_apply]
  show V m c main_arg3 _ = _
  rw [V_main_arg3]
  refine congrArg _ ?_
  funext a; apply Fin.ext
  match a with
  | ⟨0, _⟩ => show win0_2.index t (0 : Fin 2) * 256 + 1 * p.val = 256 * t.val + p.val; rw [e0]; omega
  | ⟨1, _⟩ => show win0_2.index t (1 : Fin 2) * 64 + 1 * k.val = k.val; rw [e1]; omega
theorem blk3_at (c : Dev nD) (t : Fin cfg0.N) (p : Fin 256) (k : Fin 64) :
    blk3 m c t (ix2 p k) = (m ((c : Thread nD τ).loc main_arg4) : Cert.Spec.Mat 16384 64) (ix2 (brow t p) k) := by
  obtain ⟨-, -, -, ⟨e0, e1⟩⟩ := idx_win0to3 t
  show iblk m c 3 t (ix2 p k) = _
  unfold iblk
  rw [View.read_apply]
  show V m c main_arg4 _ = _
  rw [V_main_arg4]
  refine congrArg _ ?_
  funext a; apply Fin.ext
  match a with
  | ⟨0, _⟩ => show win0_3.index t (0 : Fin 2) * 256 + 1 * p.val = 256 * t.val + p.val; rw [e0]; omega
  | ⟨1, _⟩ => show win0_3.index t (1 : Fin 2) * 64 + 1 * k.val = k.val; rw [e1]; omega
theorem blk4_at (c : Dev nD) (t : Fin cfg0.N) (k : Fin 194) (r : Fin 1024) :
    blk4 m c t (ix2 k r) = (m ((c : Thread nD τ).loc main_arg6) : Cert.Spec.Mat 3072 194) (ix2 (Cert.Spec.grow 0 r) k) := by
  obtain ⟨⟨e0, e1⟩, -⟩ := idx_win4to9 t
  show iblk m c 4 t (ix2 k r) = _
  unfold iblk
  rw [View.read_apply]
  show V m c main_v14 _ = _
  have hemb : ((cfg0.win 4).blk t).view.emb (ix2 k r) = (ix2 k r : S194x1024.Idx) := by
    funext a; apply Fin.ext
    match a with
    | ⟨0, _⟩ => show win0_4.index t (0 : Fin 2) * 194 + 1 * k.val = k.val; rw [e0]; omega
    | ⟨1, _⟩ => show win0_4.index t (1 : Fin 2) * 1024 + 1 * r.val = r.val; rw [e1]; omega
  refine (congrArg (V m c main_v14 : S194x1024.Idx → EReal) hemb).trans ?_
  rw [v14_eq]
  exact gate_band_at 0 0 (by decide) _ _ _ _ k r
theorem blk5_at (c : Dev nD) (t : Fin cfg0.N) (k : Fin 194) (r : Fin 1024) :
    blk5 m c t (ix2 k r) = (m ((c : Thread nD τ).loc main_arg6) : Cert.Spec.Mat 3072 194) (ix2 (Cert.Spec.grow 1 r) k) := by
  obtain ⟨-, ⟨e0, e1⟩, -⟩ := idx_win4to9 t
  show iblk m c 5 t (ix2 k r) = _
  unfold iblk
  rw [View.read_apply]
  show V m c main_v16 _ = _
  have hemb : ((cfg0.win 5).blk t).view.emb (ix2 k r) = (ix2 k r : S194x1024.Idx) := by
    funext a; apply Fin.ext
    match a with
    | ⟨0, _⟩ => show win0_5.index t (0 : Fin 2) * 194 + 1 * k.val = k.val; rw [e0]; omega
    | ⟨1, _⟩ => show win0_5.index t (1 : Fin 2) * 1024 + 1 * r.val = r.val; rw [e1]; omega
  refine (congrArg (V m c main_v16 : S194x1024.Idx → EReal) hemb).trans ?_
  rw [v16_eq]
  exact gate_band_at 1024 1 (by decide) _ _ _ _ k r
theorem blk6_at (c : Dev nD) (t : Fin cfg0.N) (k : Fin 194) (r : Fin 1024) :
    blk6 m c t (ix2 k r) = (m ((c : Thread nD τ).loc main_arg6) : Cert.Spec.Mat 3072 194) (ix2 (Cert.Spec.grow 2 r) k) := by
  obtain ⟨-, -, ⟨e0, e1⟩, -⟩ := idx_win4to9 t
  show iblk m c 6 t (ix2 k r) = _
  unfold iblk
  rw [View.read_apply]
  show V m c main_v18 _ = _
  have hemb : ((cfg0.win 6).blk t).view.emb (ix2 k r) = (ix2 k r : S194x1024.Idx) := by
    funext a; apply Fin.ext
    match a with
    | ⟨0, _⟩ => show win0_6.index t (0 : Fin 2) * 194 + 1 * k.val = k.val; rw [e0]; omega
    | ⟨1, _⟩ => show win0_6.index t (1 : Fin 2) * 1024 + 1 * r.val = r.val; rw [e1]; omega
  refine (congrArg (V m c main_v18 : S194x1024.Idx → EReal) hemb).trans ?_
  rw [v18_eq]
  exact gate_band_at 2048 2 (by decide) _ _ _ _ k r
theorem blk7_at (c : Dev nD) (t : Fin cfg0.N) (k : Fin 1024) (r : Fin 1024) :
    blk7 m c t (ix2 k r) = (m ((c : Thread nD τ).loc main_arg7) : Cert.Spec.Mat 3072 1024) (ix2 (Cert.Spec.grow 0 r) k) := by
  obtain ⟨-, -, -, ⟨e0, e1⟩, -⟩ := idx_win4to9 t
  show iblk m c 7 t (ix2 k r) = _
  unfold iblk
  rw [View.read_apply]
  show V m c main_v20 _ = _
  have hemb : ((cfg0.win 7).blk t).view.emb (ix2 k r) = (ix2 k r : S1024x1024.Idx) := by
    funext a; apply Fin.ext
    match a with
    | ⟨0, _⟩ => show win0_7.index t (0 : Fin 2) * 1024 + 1 * k.val = k.val; rw [e0]; omega
    | ⟨1, _⟩ => show win0_7.index t (1 : Fin 2) * 1024 + 1 * r.val = r.val; rw [e1]; omega
  refine (congrArg (V m c main_v20 : S1024x1024.Idx → EReal) hemb).trans ?_
  rw [v20_eq]
  exact gate_band_at 0 0 (by decide) _ _ _ _ k r
theorem blk8_at (c : Dev nD) (t : Fin cfg0.N) (k : Fin 1024) (r : Fin 1024) :
    blk8 m c t (ix2 k r) = (m ((c : Thread nD τ).loc main_arg7) : Cert.Spec.Mat 3072 1024) (ix2 (Cert.Spec.grow 1 r) k) := by
  obtain ⟨-, -, -, -, ⟨e0, e1⟩, -⟩ := idx_win4to9 t
  show iblk m c 8 t (ix2 k r) = _
  unfold iblk
  rw [View.read_apply]
  show V m c main_v22 _ = _
  have hemb : ((cfg0.win 8).blk t).view.emb (ix2 k r) = (ix2 k r : S1024x1024.Idx) := by
    funext a; apply Fin.ext
    match a with
    | ⟨0, _⟩ => show win0_8.index t (0 : Fin 2) * 1024 + 1 * k.val = k.val; rw [e0]; omega
    | ⟨1, _⟩ => show win0_8.index t (1 : Fin 2) * 1024 + 1 * r.val = r.val; rw [e1]; omega
  refine (congrArg (V m c main_v22 : S1024x1024.Idx → EReal) hemb).trans ?_
  rw [v22_eq]
  exact gate_band_at 1024 1 (by decide) _ _ _ _ k r
theorem blk9_at (c : Dev nD) (t : Fin cfg0.N) (k : Fin 1024) (r : Fin 1024) :
    blk9 m c t (ix2 k r) = (m ((c : Thread nD τ).loc main_arg7) : Cert.Spec.Mat 3072 1024) (ix2 (Cert.Spec.grow 2 r) k) := by
  obtain ⟨-, -, -, -, -, ⟨e0, e1⟩⟩ := idx_win4to9 t
  show iblk m c 9 t (ix2 k r) = _
  unfold iblk
  rw [View.read_apply]
  show V m c main_v24 _ = _
  have hemb : ((cfg0.win 9).blk t).view.emb (ix2 k r) = (ix2 k r : S1024x1024.Idx) := by
    funext a; apply Fin.ext
    match a with
    | ⟨0, _⟩ => show win0_9.index t (0 : Fin 2) * 1024 + 1 * k.val = k.val; rw [e0]; omega
    | ⟨1, _⟩ => show win0_9.index t (1 : Fin 2) * 1024 + 1 * r.val = r.val; rw [e1]; omega
  refine (congrArg (V m c main_v24 : S1024x1024.Idx → EReal) hemb).trans ?_
  rw [v24_eq]
  exact gate_band_at 2048 2 (by decide) _ _ _ _ k r

end Cert.KernelIdeal.Hand

end
-- ==== Proof.KIBlocksB.lean ====
/-
  The last fourteen input windows' blocks, entry by entry, in terms of the program's argument arrays.

  All of them stay whole. A gate's bias row is one band of a stacked bias vector laid out as a single row: its entry
  `(0, r)` is entry `1024 g + r` of the vector. A head's weight block is the weight matrix transposed, so its entry `(k, r)` is
  entry `(r, k)` of the matrix (the cast to the narrow float format is the identity on extended reals); a head's bias row
  is the bias vector laid out as a single row.

  Each window's proof has two halves. Its block index is `(0, 0)` at every grid point and its block is as large as its
  array, so the block's entry `(p, q)` is the array's entry `(0 · rows + p, 0 · columns + q) = (p, q)`. And the array,
  made by the operations before the launch, is a band of a vector laid out as a row, a matrix transposed and narrowed,
  or a vector laid out as a row: each is read at an index.
-/
import proofs.«133260_j481036337285_1_alg».proof.Proof.KIEntry
import proofs.«133260_j481036337285_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

abbrev blk10 (c : Dev nD) (t : Fin cfg0.N) : Vec Ideal S1x1024 .f32 := iblk m c 10 t
abbrev blk11 (c : Dev nD) (t : Fin cfg0.N) : Vec Ideal S1x1024 .f32 := iblk m c 11 t
abbrev blk12 (c : Dev nD) (t : Fin cfg0.N) : Vec Ideal S1x1024 .f32 := iblk m c 12 t
abbrev blk13 (c : Dev nD) (t : Fin cfg0.N) : Vec Ideal S1x1024 .f32 := iblk m c 13 t
abbrev blk14 (c : Dev nD) (t : Fin cfg0.N) : Vec Ideal S1x1024 .f32 := iblk m c 14 t
abbrev blk15 (c : Dev nD) (t : Fin cfg0.N) : Vec Ideal S1x1024 .f32 := iblk m c 15 t
abbrev blk16 (c : Dev nD) (t : Fin cfg0.N) : Vec Ideal S576x1024 .bf16 := iblk m c 16 t
abbrev blk17 (c : Dev nD) (t : Fin cfg0.N) : Vec Ideal S1x1024 .f32 := iblk m c 17 t
abbrev blk18 (c : Dev nD) (t : Fin cfg0.N) : Vec Ideal S1024x256 .bf16 := iblk m c 18 t
abbrev blk19 (c : Dev nD) (t : Fin cfg0.N) : Vec Ideal S1x256 .f32 := iblk m c 19 t
abbrev blk20 (c : Dev nD) (t : Fin cfg0.N) : Vec Ideal S576x1024 .bf16 := iblk m c 20 t
abbrev blk21 (c : Dev nD) (t : Fin cfg0.N) : Vec Ideal S1x1024 .f32 := iblk m c 21 t
abbrev blk22 (c : Dev nD) (t : Fin cfg0.N) : Vec Ideal S1024x256 .bf16 := iblk m c 22 t
abbrev blk23 (c : Dev nD) (t : Fin cfg0.N) : Vec Ideal S1x256 .f32 := iblk m c 23 t

/-! ## The index maps: every one of these windows has block index `(0, 0)` at every grid point -/

theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = 0 ∧ win0_20.index t (1 : Fin 2) = 0 :=
  (by decide +kernel : ∀ t : Fin grid0.N, _)
theorem idx21 : ∀ t : Fin cfg0.N, win0_21.index t (0 : Fin 2) = 0 ∧ win0_21.index t (1 : Fin 2) = 0 :=
  (by decide +kernel : ∀ t : Fin grid0.N, _)
theorem idx22 : ∀ t : Fin cfg0.N, win0_22.index t (0 : Fin 2) = 0 ∧ win0_22.index t (1 : Fin 2) = 0 :=
  (by decide +kernel : ∀ t : Fin grid0.N, _)
theorem idx23 : ∀ t : Fin cfg0.N, win0_23.index t (0 : Fin 2) = 0 ∧ win0_23.index t (1 : Fin 2) = 0 :=
  (by decide +kernel : ∀ t : Fin grid0.N, _)

/-! ## Reading a vector's band, over explicit coordinates -/

/-- A vector cut from `o` reads, at `j`, the source at `k` with `k = o + j`. -/
theorem slice1_apply {n l : Nat} (o : Nat) (X : (⟨1, ![n]⟩ : Shape).Idx → EReal) (h : (⟨1, ![n]⟩ : Shape).Slices ![o] ⟨1, ![l]⟩)
    (j : Fin l) (k : Fin n) (hk : k.val = o + j.val) : extractStridedSlice ⟨1, ![l]⟩ ![o] X h (ix1 j) = X (ix1 k) :=
  extractStridedSlice_apply _ _ _ _ _ (fun ax => by
    match ax with
    | ⟨0, _⟩ => exact hk)

/-- Band `g` of a stacked vector, laid out as a single row, has at `(0, r)` the vector's entry `1024 g + r`. -/
theorem band_row_at (o : Nat) (X : S3072.Idx → EReal) (h : S3072.Slices ![o] S1024) (hc : S1024.ShapeCasts S1x1024)
    (g : Fin 3) (ho : o = 1024 * g.val) (r : Fin 1024) :
    shapeCast S1x1024 (extractStridedSlice S1024 ![o] X h) hc (ix2 (0 : Fin 1) r) = X (ix1 (Cert.Spec.grow g r)) :=
  (shapeCast_a_1a_apply _ hc 0 r).trans (slice1_apply o X h r _ (by show 1024 * g.val + r.val = o + r.val; omega))

/-! ## The gates' bias rows: windows 10 to 15 -/

/-- Window 10's block is its whole array. -/
theorem blk10_read (c : Dev nD) (t : Fin cfg0.N) (r : Fin 1024) :
    blk10 m c t (ix2 (0 : Fin 1) r) = (V m c main_v25 : S1x1024.Idx → EReal) (ix2 (0 : Fin 1) r) := by
  unfold blk10 iblk
  rw [View.read_apply]
  show V m c main_v25 _ = V m c main_v25 _
  congr 1
  funext a
  apply Fin.ext
  match a with
  | ⟨0, _⟩ => show win0_10.index t (0 : Fin 2) * 1 + 1 * 0 = 0; rw [(idx10 t).1]
  | ⟨1, _⟩ => show win0_10.index t (1 : Fin 2) * 1024 + 1 * r.val = r.val; rw [(idx10 t).2]; omega

/-- Its array is band 0 of argument 8, laid out as a single row. -/
theorem v25_eq (c : Dev nD) : (V m c main_v25 : S1x1024.Idx → EReal)
    = shapeCast S1x1024 (extractStridedSlice S1024 ![0] (m ((c : Thread nD τ).loc main_arg8) : S3072.Idx → EReal) slices_S3072_S1024_0) shapeCasts_S1024_S1x1024 := by
  dsimp only [V, hostOps0]
  after_results
  rfl

/-- Window 11's block is its whole array. -/
theorem blk11_read (c : Dev nD) (t : Fin cfg0.N) (r : Fin 1024) :
    blk11 m c t (ix2 (0 : Fin 1) r) = (V m c main_v26 : S1x1024.Idx → EReal) (ix2 (0 : Fin 1) r) := by
  unfold blk11 iblk
  rw [View.read_apply]
  show V m c main_v26 _ = V m c main_v26 _
  congr 1
  funext a
  apply Fin.ext
  match a with
  | ⟨0, _⟩ => show win0_11.index t (0 : Fin 2) * 1 + 1 * 0 = 0; rw [(idx11 t).1]
  | ⟨1, _⟩ => show win0_11.index t (1 : Fin 2) * 1024 + 1 * r.val = r.val; rw [(idx11 t).2]; omega

/-- Its array is band 1 of argument 8, laid out as a single row. -/
theorem v26_eq (c : Dev nD) : (V m c main_v26 : S1x1024.Idx → EReal)
    = shapeCast S1x1024 (extractStridedSlice S1024 ![1024] (m ((c : Thread nD τ).loc main_arg8) : S3072.Idx → EReal) slices_S3072_S1024_1024) shapeCasts_S1024_S1x1024 := by
  dsimp only [V, hostOps0]
  after_results
  rfl

/-- Window 12's block is its whole array. -/
theorem blk12_read (c : Dev nD) (t : Fin cfg0.N) (r : Fin 1024) :
    blk12 m c t (ix2 (0 : Fin 1) r) = (V m c main_v27 : S1x1024.Idx → EReal) (ix2 (0 : Fin 1) r) := by
  unfold blk12 iblk
  rw [View.read_apply]
  show V m c main_v27 _ = V m c main_v27 _
  congr 1
  funext a
  apply Fin.ext
  match a with
  | ⟨0, _⟩ => show win0_12.index t (0 : Fin 2) * 1 + 1 * 0 = 0; rw [(idx12 t).1]
  | ⟨1, _⟩ => show win0_12.index t (1 : Fin 2) * 1024 + 1 * r.val = r.val; rw [(idx12 t).2]; omega

/-- Its array is band 2 of argument 8, laid out as a single row. -/
theorem v27_eq (c : Dev nD) : (V m c main_v27 : S1x1024.Idx → EReal)
    = shapeCast S1x1024 (extractStridedSlice S1024 ![2048] (m ((c : Thread nD τ).loc main_arg8) : S3072.Idx → EReal) slices_S3072_S1024_2048) shapeCasts_S1024_S1x1024 := by
  dsimp only [V, hostOps0]
  after_results
  rfl

/-- Window 13's block is its whole array. -/
theorem blk13_read (c : Dev nD) (t : Fin cfg0.N) (r : Fin 1024) :
    blk13 m c t (ix2 (0 : Fin 1) r) = (V m c main_v28 : S1x1024.Idx → EReal) (ix2 (0 : Fin 1) r) := by
  unfold blk13 iblk
  rw [View.read_apply]
  show V m c main_v28 _ = V m c main_v28 _
  congr 1
  funext a
  apply Fin.ext
  match a with
  | ⟨0, _⟩ => show win0_13.index t (0 : Fin 2) * 1 + 1 * 0 = 0; rw [(idx13 t).1]
  | ⟨1, _⟩ => show win0_13.index t (1 : Fin 2) * 1024 + 1 * r.val = r.val; rw [(idx13 t).2]; omega

/-- Its array is band 0 of argument 9, laid out as a single row. -/
theorem v28_eq (c : Dev nD) : (V m c main_v28 : S1x1024.Idx → EReal)
    = shapeCast S1x1024 (extractStridedSlice S1024 ![0] (m ((c : Thread nD τ).loc main_arg9) : S3072.Idx → EReal) slices_S3072_S1024_0) shapeCasts_S1024_S1x1024 := by
  dsimp only [V, hostOps0]
  after_results
  rfl

/-- Window 14's block is its whole array. -/
theorem blk14_read (c : Dev nD) (t : Fin cfg0.N) (r : Fin 1024) :
    blk14 m c t (ix2 (0 : Fin 1) r) = (V m c main_v29 : S1x1024.Idx → EReal) (ix2 (0 : Fin 1) r) := by
  unfold blk14 iblk
  rw [View.read_apply]
  show V m c main_v29 _ = V m c main_v29 _
  congr 1
  funext a
  apply Fin.ext
  match a with
  | ⟨0, _⟩ => show win0_14.index t (0 : Fin 2) * 1 + 1 * 0 = 0; rw [(idx14 t).1]
  | ⟨1, _⟩ => show win0_14.index t (1 : Fin 2) * 1024 + 1 * r.val = r.val; rw [(idx14 t).2]; omega

/-- Its array is band 1 of argument 9, laid out as a single row. -/
theorem v29_eq (c : Dev nD) : (V m c main_v29 : S1x1024.Idx → EReal)
    = shapeCast S1x1024 (extractStridedSlice S1024 ![1024] (m ((c : Thread nD τ).loc main_arg9) : S3072.Idx → EReal) slices_S3072_S1024_1024) shapeCasts_S1024_S1x1024 := by
  dsimp only [V, hostOps0]
  after_results
  rfl

/-- Window 15's block is its whole array. -/
theorem blk15_read (c : Dev nD) (t : Fin cfg0.N) (r : Fin 1024) :
    blk15 m c t (ix2 (0 : Fin 1) r) = (V m c main_v30 : S1x1024.Idx → EReal) (ix2 (0 : Fin 1) r) := by
  unfold blk15 iblk
  rw [View.read_apply]
  show V m c main_v30 _ = V m c main_v30 _
  congr 1
  funext a
  apply Fin.ext
  match a with
  | ⟨0, _⟩ => show win0_15.index t (0 : Fin 2) * 1 + 1 * 0 = 0; rw [(idx15 t).1]
  | ⟨1, _⟩ => show win0_15.index t (1 : Fin 2) * 1024 + 1 * r.val = r.val; rw [(idx15 t).2]; omega

/-- Its array is band 2 of argument 9, laid out as a single row. -/
theorem v30_eq (c : Dev nD) : (V m c main_v30 : S1x1024.Idx → EReal)
    = shapeCast S1x1024 (extractStridedSlice S1024 ![2048] (m ((c : Thread nD τ).loc main_arg9) : S3072.Idx → EReal) slices_S3072_S1024_2048) shapeCasts_S1024_S1x1024 := by
  dsimp only [V, hostOps0]
  after_results
  rfl

/-! ## The heads' weight blocks: windows 16, 18, 20 and 22 -/

/-- Window 16's block is its whole array. -/
theorem blk16_read (c : Dev nD) (t : Fin cfg0.N) (k : Fin 576) (r : Fin 1024) :
    blk16 m c t (ix2 k r) = (V m c main_v32 : S576x1024.Idx → EReal) (ix2 k r) := by
  unfold blk16 iblk
  rw [View.read_apply]
  show V m c main_v32 _ = V m c main_v32 _
  congr 1
  funext a
  apply Fin.ext
  match a with
  | ⟨0, _⟩ => show win0_16.index t (0 : Fin 2) * 576 + 1 * k.val = k.val; rw [(idx16 t).1]; omega
  | ⟨1, _⟩ => show win0_16.index t (1 : Fin 2) * 1024 + 1 * r.val = r.val; rw [(idx16 t).2]; omega

/-- Its array is argument 10 transposed, then narrowed. -/
theorem v32_eq (c : Dev nD) : (V m c main_v32 : S576x1024.Idx → EReal)
    = truncf .bf16 (transpose S576x1024 [1, 0] (m ((c : Thread nD τ).loc main_arg10) : S1024x576.Idx → EReal) transposes_S1024x576_S576x1024_1_0 : FVec Ideal S576x1024 .f32) bitsLt_bf16_f32 := by
  dsimp only [V, hostOps0]
  after_results

/-- Window 20's block is its whole array. -/
theorem blk20_read (c : Dev nD) (t : Fin cfg0.N) (k : Fin 576) (r : Fin 1024) :
    blk20 m c t (ix2 k r) = (V m c main_v36 : S576x1024.Idx → EReal) (ix2 k r) := by
  unfold blk20 iblk
  rw [View.read_apply]
  show V m c main_v36 _ = V m c main_v36 _
  congr 1
  funext a
  apply Fin.ext
  match a with
  | ⟨0, _⟩ => show win0_20.index t (0 : Fin 2) * 576 + 1 * k.val = k.val; rw [(idx20 t).1]; omega
  | ⟨1, _⟩ => show win0_20.index t (1 : Fin 2) * 1024 + 1 * r.val = r.val; rw [(idx20 t).2]; omega

/-- Its array is argument 14 transposed, then narrowed. -/
theorem v36_eq (c : Dev nD) : (V m c main_v36 : S576x1024.Idx → EReal)
    = truncf .bf16 (transpose S576x1024 [1, 0] (m ((c : Thread nD τ).loc main_arg14) : S1024x576.Idx → EReal) transposes_S1024x576_S576x1024_1_0 : FVec Ideal S576x1024 .f32) bitsLt_bf16_f32 := by
  dsimp only [V, hostOps0]
  after_results

/-- Window 18's block is its whole array. -/
theorem blk18_read (c : Dev nD) (t : Fin cfg0.N) (k : Fin 1024) (r : Fin 256) :
    blk18 m c t (ix2 k r) = (V m c main_v34 : S1024x256.Idx → EReal) (ix2 k r) := by
  unfold blk18 iblk
  rw [View.read_apply]
  show V m c main_v34 _ = V m c main_v34 _
  congr 1
  funext a
  apply Fin.ext
  match a with
  | ⟨0, _⟩ => show win0_18.index t (0 : Fin 2) * 1024 + 1 * k.val = k.val; rw [(idx18 t).1]; omega
  | ⟨1, _⟩ => show win0_18.index t (1 : Fin 2) * 256 + 1 * r.val = r.val; rw [(idx18 t).2]; omega

/-- Its array is argument 12 transposed, then narrowed. -/
theorem v34_eq (c : Dev nD) : (V m c main_v34 : S1024x256.Idx → EReal)
    = truncf .bf16 (transpose S1024x256 [1, 0] (m ((c : Thread nD τ).loc main_arg12) : S256x1024.Idx → EReal) transposes_S256x1024_S1024x256_1_0 : FVec Ideal S1024x256 .f32) bitsLt_bf16_f32 := by
  dsimp only [V, hostOps0]
  after_results

/-- Window 22's block is its whole array. -/
theorem blk22_read (c : Dev nD) (t : Fin cfg0.N) (k : Fin 1024) (r : Fin 256) :
    blk22 m c t (ix2 k r) = (V m c main_v38 : S1024x256.Idx → EReal) (ix2 k r) := by
  unfold blk22 iblk
  rw [View.read_apply]
  show V m c main_v38 _ = V m c main_v38 _
  congr 1
  funext a
  apply Fin.ext
  match a with
  | ⟨0, _⟩ => show win0_22.index t (0 : Fin 2) * 1024 + 1 * k.val = k.val; rw [(idx22 t).1]; omega
  | ⟨1, _⟩ => show win0_22.index t (1 : Fin 2) * 256 + 1 * r.val = r.val; rw [(idx22 t).2]; omega

/-- Its array is argument 16 transposed, then narrowed. -/
theorem v38_eq (c : Dev nD) : (V m c main_v38 : S1024x256.Idx → EReal)
    = truncf .bf16 (transpose S1024x256 [1, 0] (m ((c : Thread nD τ).loc main_arg16) : S256x1024.Idx → EReal) transposes_S256x1024_S1024x256_1_0 : FVec Ideal S1024x256 .f32) bitsLt_bf16_f32 := by
  dsimp only [V, hostOps0]
  after_results

/-! ## The heads' bias rows: windows 17, 19, 21 and 23 -/

/-- Window 17's block is its whole array. -/
theorem blk17_read (c : Dev nD) (t : Fin cfg0.N) (r : Fin 1024) :
    blk17 m c t (ix2 (0 : Fin 1) r) = (V m c main_v39 : S1x1024.Idx → EReal) (ix2 (0 : Fin 1) r) := by
  unfold blk17 iblk
  rw [View.read_apply]
  show V m c main_v39 _ = V m c main_v39 _
  congr 1
  funext a
  apply Fin.ext
  match a with
  | ⟨0, _⟩ => show win0_17.index t (0 : Fin 2) * 1 + 1 * 0 = 0; rw [(idx17 t).1]
  | ⟨1, _⟩ => show win0_17.index t (1 : Fin 2) * 1024 + 1 * r.val = r.val; rw [(idx17 t).2]; omega

/-- Its array is argument 11 laid out as a single row. -/
theorem v39_eq (c : Dev nD) : (V m c main_v39 : S1x1024.Idx → EReal)
    = shapeCast S1x1024 (m ((c : Thread nD τ).loc main_arg11) : S1024.Idx → EReal) shapeCasts_S1024_S1x1024 := by
  dsimp only [V, hostOps0]
  after_results
  rfl

/-- Window 21's block is its whole array. -/
theorem blk21_read (c : Dev nD) (t : Fin cfg0.N) (r : Fin 1024) :
    blk21 m c t (ix2 (0 : Fin 1) r) = (V m c main_v41 : S1x1024.Idx → EReal) (ix2 (0 : Fin 1) r) := by
  unfold blk21 iblk
  rw [View.read_apply]
  show V m c main_v41 _ = V m c main_v41 _
  congr 1
  funext a
  apply Fin.ext
  match a with
  | ⟨0, _⟩ => show win0_21.index t (0 : Fin 2) * 1 + 1 * 0 = 0; rw [(idx21 t).1]
  | ⟨1, _⟩ => show win0_21.index t (1 : Fin 2) * 1024 + 1 * r.val = r.val; rw [(idx21 t).2]; omega

/-- Its array is argument 15 laid out as a single row. -/
theorem v41_eq (c : Dev nD) : (V m c main_v41 : S1x1024.Idx → EReal)
    = shapeCast S1x1024 (m ((c : Thread nD τ).loc main_arg15) : S1024.Idx → EReal) shapeCasts_S1024_S1x1024 := by
  dsimp only [V, hostOps0]
  after_results
  rfl

/-- Window 19's block is its whole array. -/
theorem blk19_read (c : Dev nD) (t : Fin cfg0.N) (r : Fin 256) :
    blk19 m c t (ix2 (0 : Fin 1) r) = (V m c main_v40 : S1x256.Idx → EReal) (ix2 (0 : Fin 1) r) := by
  unfold blk19 iblk
  rw [View.read_apply]
  show V m c main_v40 _ = V m c main_v40 _
  congr 1
  funext a
  apply Fin.ext
  match a with
  | ⟨0, _⟩ => show win0_19.index t (0 : Fin 2) * 1 + 1 * 0 = 0; rw [(idx19 t).1]
  | ⟨1, _⟩ => show win0_19.index t (1 : Fin 2) * 256 + 1 * r.val = r.val; rw [(idx19 t).2]; omega

/-- Its array is argument 13 laid out as a single row. -/
theorem v40_eq (c : Dev nD) : (V m c main_v40 : S1x256.Idx → EReal)
    = shapeCast S1x256 (m ((c : Thread nD τ).loc main_arg13) : S256.Idx → EReal) shapeCasts_S256_S1x256 := by
  dsimp only [V, hostOps0]
  after_results
  rfl

/-- Window 23's block is its whole array. -/
theorem blk23_read (c : Dev nD) (t : Fin cfg0.N) (r : Fin 256) :
    blk23 m c t (ix2 (0 : Fin 1) r) = (V m c main_v42 : S1x256.Idx → EReal) (ix2 (0 : Fin 1) r) := by
  unfold blk23 iblk
  rw [View.read_apply]
  show V m c main_v42 _ = V m c main_v42 _
  congr 1
  funext a
  apply Fin.ext
  match a with
  | ⟨0, _⟩ => show win0_23.index t (0 : Fin 2) * 1 + 1 * 0 = 0; rw [(idx23 t).1]
  | ⟨1, _⟩ => show win0_23.index t (1 : Fin 2) * 256 + 1 * r.val = r.val; rw [(idx23 t).2]; omega

/-- Its array is argument 17 laid out as a single row. -/
theorem v42_eq (c : Dev nD) : (V m c main_v42 : S1x256.Idx → EReal)
    = shapeCast S1x256 (m ((c : Thread nD τ).loc main_arg17) : S256.Idx → EReal) shapeCasts_S256_S1x256 := by
  dsimp only [V, hostOps0]
  after_results
  rfl

/-! ## The blocks, entry by entry -/

theorem blk10_at (c : Dev nD) (t : Fin cfg0.N) (r : Fin 1024) :
    blk10 m c t (ix2 (0 : Fin 1) r) = (m ((c : Thread nD τ).loc main_arg8) : Cert.Spec.Vc 3072) (ix1 (Cert.Spec.grow 0 r)) := by
  rw [blk10_read, v25_eq]
  exact band_row_at _ _ _ _ 0 rfl r
theorem blk11_at (c : Dev nD) (t : Fin cfg0.N) (r : Fin 1024) :
    blk11 m c t (ix2 (0 : Fin 1) r) = (m ((c : Thread nD τ).loc main_arg8) : Cert.Spec.Vc 3072) (ix1 (Cert.Spec.grow 1 r)) := by
  rw [blk11_read, v26_eq]
  exact band_row_at _ _ _ _ 1 rfl r
theorem blk12_at (c : Dev nD) (t : Fin cfg0.N) (r : Fin 1024) :
    blk12 m c t (ix2 (0 : Fin 1) r) = (m ((c : Thread nD τ).loc main_arg8) : Cert.Spec.Vc 3072) (ix1 (Cert.Spec.grow 2 r)) := by
  rw [blk12_read, v27_eq]
  exact band_row_at _ _ _ _ 2 rfl r
theorem blk13_at (c : Dev nD) (t : Fin cfg0.N) (r : Fin 1024) :
    blk13 m c t (ix2 (0 : Fin 1) r) = (m ((c : Thread nD τ).loc main_arg9) : Cert.Spec.Vc 3072) (ix1 (Cert.Spec.grow 0 r)) := by
  rw [blk13_read, v28_eq]
  exact band_row_at _ _ _ _ 0 rfl r
theorem blk14_at (c : Dev nD) (t : Fin cfg0.N) (r : Fin 1024) :
    blk14 m c t (ix2 (0 : Fin 1) r) = (m ((c : Thread nD τ).loc main_arg9) : Cert.Spec.Vc 3072) (ix1 (Cert.Spec.grow 1 r)) := by
  rw [blk14_read, v29_eq]
  exact band_row_at _ _ _ _ 1 rfl r
theorem blk15_at (c : Dev nD) (t : Fin cfg0.N) (r : Fin 1024) :
    blk15 m c t (ix2 (0 : Fin 1) r) = (m ((c : Thread nD τ).loc main_arg9) : Cert.Spec.Vc 3072) (ix1 (Cert.Spec.grow 2 r)) := by
  rw [blk15_read, v30_eq]
  exact band_row_at _ _ _ _ 2 rfl r
theorem blk16_at (c : Dev nD) (t : Fin cfg0.N) (k : Fin 576) (r : Fin 1024) :
    blk16 m c t (ix2 k r) = (m ((c : Thread nD τ).loc main_arg10) : Cert.Spec.Mat 1024 576) (ix2 r k) := by
  rw [blk16_read, v32_eq]
  exact transpose_ix2_apply _ _ k r
theorem blk20_at (c : Dev nD) (t : Fin cfg0.N) (k : Fin 576) (r : Fin 1024) :
    blk20 m c t (ix2 k r) = (m ((c : Thread nD τ).loc main_arg14) : Cert.Spec.Mat 1024 576) (ix2 r k) := by
  rw [blk20_read, v36_eq]
  exact transpose_ix2_apply _ _ k r
theorem blk17_at (c : Dev nD) (t : Fin cfg0.N) (r : Fin 1024) :
    blk17 m c t (ix2 (0 : Fin 1) r) = (m ((c : Thread nD τ).loc main_arg11) : Cert.Spec.Vc 1024) (ix1 r) := by
  rw [blk17_read, v39_eq]
  exact shapeCast_a_1a_apply _ _ 0 r
theorem blk21_at (c : Dev nD) (t : Fin cfg0.N) (r : Fin 1024) :
    blk21 m c t (ix2 (0 : Fin 1) r) = (m ((c : Thread nD τ).loc main_arg15) : Cert.Spec.Vc 1024) (ix1 r) := by
  rw [blk21_read, v41_eq]
  exact shapeCast_a_1a_apply _ _ 0 r
theorem blk18_at (c : Dev nD) (t : Fin cfg0.N) (k : Fin 1024) (r : Fin 256) :
    blk18 m c t (ix2 k r) = (m ((c : Thread nD τ).loc main_arg12) : Cert.Spec.Mat 256 1024) (ix2 r k) := by
  rw [blk18_read, v34_eq]
  exact transpose_ix2_apply _ _ k r
theorem blk22_at (c : Dev nD) (t : Fin cfg0.N) (k : Fin 1024) (r : Fin 256) :
    blk22 m c t (ix2 k r) = (m ((c : Thread nD τ).loc main_arg16) : Cert.Spec.Mat 256 1024) (ix2 r k) := by
  rw [blk22_read, v38_eq]
  exact transpose_ix2_apply _ _ k r
theorem blk19_at (c : Dev nD) (t : Fin cfg0.N) (r : Fin 256) :
    blk19 m c t (ix2 (0 : Fin 1) r) = (m ((c : Thread nD τ).loc main_arg13) : Cert.Spec.Vc 256) (ix1 r) := by
  rw [blk19_read, v40_eq]
  exact shapeCast_a_1a_apply _ _ 0 r
theorem blk23_at (c : Dev nD) (t : Fin cfg0.N) (r : Fin 256) :
    blk23 m c t (ix2 (0 : Fin 1) r) = (m ((c : Thread nD τ).loc main_arg17) : Cert.Spec.Vc 256) (ix1 r) := by
  rw [blk23_read, v42_eq]
  exact shapeCast_a_1a_apply _ _ 0 r

end Cert.KernelIdeal.Hand

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KIBlockValue.lean ====
/-
  The kernel's three output blocks, entry by entry, on the extended reals.

  A block is 256 batch rows. Every operation of the body acts on a batch row by itself: a matrix product's entry at row
  `p` is a sum over the contracted axis of row `p` of the left operand against a column of the right operand, and the
  right operands are the transposed weight blocks, so that column is a ROW of the weights; a bias block is one row, added
  to every batch row; the casts to the narrow float format are the identity on extended reals. So entry `(p, j)` of the
  new hidden block is the specification's `gruAt` at row `p` of the feature and hidden blocks, and entry `(p, j)` of a
  head's block is the specification's `headAt` at half of row `p` of the new hidden block and row `p` of the auxiliary block.
-/
import proofs.«133260_j481036337285_1_alg».proof.Proof.KIBody
import proofs.«133260_j481036337285_1_alg».proof.Proof.Spec
import proofs.«133260_j481036337285_1_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

namespace BlockValue

/-- The two zero offsets of a whole-block load, as the constant function. -/
theorem hz2 : (![0, 0] : Fin 2 → Nat) = fun _ => 0 := funext fun a => by fin_cases a <;> rfl

/-! ## An affine map at an entry -/

/-- A product into a zero accumulator plus a broadcast bias row, at row `p` and column `j`: row `p` of the left operand
    against column `j` of the right operand, which is row `j` of the weights read transposed, plus the bias at `j`. -/
theorem affine_at {M K N : ℕ} {φ₁ φ₂ : FTy} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1])
    (A : FVec Ideal ⟨2, ![M, K]⟩ φ₁) (B : FVec Ideal ⟨2, ![K, N]⟩ φ₂) (b : FVec Ideal ⟨2, ![1, N]⟩ .f32)
    (hb : (⟨2, ![1, N]⟩ : Shape).Broadcasts ⟨2, ![M, N]⟩) (p : Fin M) (j : Fin N) :
    addf (matmul D none A B (constant ⟨2, ![M, N]⟩ .f32 0x00000000#32)) (broadcastTo ⟨2, ![M, N]⟩ b hb) (ix2 p j)
      = Cert.Spec.affineAt (fun k => A (ix2 p k)) (fun r k => B (ix2 k r)) (fun r => b (ix2 (0 : Fin 1) r)) j := by
  unfold Cert.Spec.affineAt
  refine congrArg₂ (· + ·) ?_ ?_
  · exact Cert.LibMatmulAt.matmul_zero_at D hlc hrc hlb hrb hln hrn none A B p j
  · exact broadcastTo_1b_ab_apply b hb p j

/-! ## The six gate pre-activations -/

/-- An input-side gate: the feature row against the gate's weights, plus its bias. -/
theorem pay5_at (v0 : Vec Ideal S256x194 .f32) (v5 : Vec Ideal S194x1024 .bf16) (v8 : Vec Ideal S1x1024 .f32)
    (p : Fin 256) (j : Fin 1024) :
    k0_pay5 (F := Ideal) v0 v5 v8 (ix2 p j)
      = Cert.Spec.affineAt (fun k => v0 (ix2 p k)) (fun r k => v5 (ix2 k r)) (fun r => v8 (ix2 (0 : Fin 1) r)) j := by
  unfold k0_pay5 k0_pay3
  rw [shapeCast_self, shapeCast_self, shapeCast_self]
  exact affine_at dot_S256x194_S194x1024_S256x1024_1_0_0_1_n_n rfl rfl rfl rfl rfl rfl _ v5 v8 _ p j

theorem pay6_at (v0 : Vec Ideal S256x194 .f32) (v5 : Vec Ideal S194x1024 .bf16) (v8 : Vec Ideal S1x1024 .f32)
    (p : Fin 256) (j : Fin 1024) :
    k0_pay6 (F := Ideal) v0 v5 v8 (ix2 p j)
      = Cert.Spec.affineAt (fun k => v0 (ix2 p k)) (fun r k => v5 (ix2 k r)) (fun r => v8 (ix2 (0 : Fin 1) r)) j := by
  unfold k0_pay6 k0_pay3
  rw [shapeCast_self, shapeCast_self, shapeCast_self]
  exact affine_at dot_S256x194_S194x1024_S256x1024_1_0_0_1_n_n rfl rfl rfl rfl rfl rfl _ v5 v8 _ p j

theorem pay7_at (v0 : Vec Ideal S256x194 .f32) (v5 : Vec Ideal S194x1024 .bf16) (v8 : Vec Ideal S1x1024 .f32)
    (p : Fin 256) (j : Fin 1024) :
    k0_pay7 (F := Ideal) v0 v5 v8 (ix2 p j)
      = Cert.Spec.affineAt (fun k => v0 (ix2 p k)) (fun r k => v5 (ix2 k r)) (fun r => v8 (ix2 (0 : Fin 1) r)) j := by
  unfold k0_pay7 k0_pay3
  rw [shapeCast_self, shapeCast_self, shapeCast_self]
  exact affine_at dot_S256x194_S194x1024_S256x1024_1_0_0_1_n_n rfl rfl rfl rfl rfl rfl _ v5 v8 _ p j

/-- The hidden-side reset gate: the hidden row against the gate's weights, plus its bias. -/
theorem pay8_at (v3 : Vec Ideal S256x1024 .f32) (v26 : Vec Ideal S1024x1024 .bf16) (v29 : Vec Ideal S1x1024 .f32)
    (p : Fin 256) (j : Fin 1024) :
    k0_pay8 (F := Ideal) v3 v26 v29 (ix2 p j)
      = Cert.Spec.affineAt (fun k => v3 (ix2 p k)) (fun r k => v26 (ix2 k r)) (fun r => v29 (ix2 (0 : Fin 1) r)) j := by
  unfold k0_pay8 k0_pay4
  rw [shapeCast_self, shapeCast_self]
  exact affine_at dot_S256x1024_S1024x1024_S256x1024_1_0_0_1_n_n rfl rfl rfl rfl rfl rfl _ v26 v29 _ p j

/-! ## The cell -/

/-- The cell's entry-by-entry combination of the gate blocks, at an index. -/
theorem cell_at (v3 v11 v18 v25 v32 A B : FVec Ideal S256x1024 .f32) (i : S256x1024.Idx) :
    addf (mulf (subf (broadcast S256x1024 (Scalar.ofBits (F := Ideal) .f32 0x3F800000#32)) (logistic (addf v18 A)))
        (tanh (addf v25 (mulf (logistic (addf v11 v32)) B)))) (mulf (logistic (addf v18 A)) v3) i
      = (Cert.Spec.one - Ideal.logistic (v18 i + A i)) * Ideal.tanh (v25 i + Ideal.logistic (v11 i + v32 i) * B i)
          + Ideal.logistic (v18 i + A i) * v3 i := rfl

/-- The new hidden block at an entry, from the gate blocks computed before it and the two hidden-side gates it computes
    itself (update and candidate). -/
theorem pay9_at (v3 : Vec Ideal S256x1024 .f32) (v4 : FVec Ideal S256x1024 .bf16) (v11 : FVec Ideal S256x1024 .f32) (v18 : FVec Ideal S256x1024 .f32) (v25 : FVec Ideal S256x1024 .f32) (v32 : FVec Ideal S256x1024 .f32) (v33 : Vec Ideal S1024x1024 .bf16) (v36 : Vec Ideal S1x1024 .f32) (v40 : Vec Ideal S1024x1024 .bf16) (v43 : Vec Ideal S1x1024 .f32) (p : Fin 256) (j : Fin 1024) :
    k0_pay9 (F := Ideal) v3 v4 v11 v18 v25 v32 v33 v36 v40 v43 (ix2 p j)
      = (Cert.Spec.one - Ideal.logistic (v18 (ix2 p j)
            + Cert.Spec.affineAt (fun k => v4 (ix2 p k)) (fun r k => v33 (ix2 k r)) (fun r => v36 (ix2 (0 : Fin 1) r)) j))
          * Ideal.tanh (v25 (ix2 p j) + Ideal.logistic (v11 (ix2 p j) + v32 (ix2 p j))
            * Cert.Spec.affineAt (fun k => v4 (ix2 p k)) (fun r k => v40 (ix2 k r)) (fun r => v43 (ix2 (0 : Fin 1) r)) j)
        + Ideal.logistic (v18 (ix2 p j)
            + Cert.Spec.affineAt (fun k => v4 (ix2 p k)) (fun r k => v33 (ix2 k r)) (fun r => v36 (ix2 (0 : Fin 1) r)) j)
          * v3 (ix2 p j) := by
  unfold k0_pay9
  rw [shapeCast_self, shapeCast_self, shapeCast_self, shapeCast_self]
  refine (cell_at v3 v11 v18 v25 v32 _ _ (ix2 p j)).trans ?_
  rw [affine_at dot_S256x1024_S1024x1024_S256x1024_1_0_0_1_n_n rfl rfl rfl rfl rfl rfl v4 v33 v36 _ p j,
    affine_at dot_S256x1024_S1024x1024_S256x1024_1_0_0_1_n_n rfl rfl rfl rfl rfl rfl v4 v40 v43 _ p j]

/-! ## A half of the new hidden block, and a head's input row -/

/-- The block cut to its columns `[0, 512)` reads, at `(p, k)`, the block at column `k` of the lower half. -/
theorem slice_lo_at (X : FVec Ideal S256x1024 .f32) (p : Fin 256) (k : Fin 512) :
    extractStridedSlice S256x512 ![0, 0] X slices_S256x1024_o0_0_S256x512 (ix2 p k) = X (ix2 p (Cert.Spec.half 0 k)) :=
  slice2_axis1_apply 0 X slices_S256x1024_o0_0_S256x512 p k (Cert.Spec.half 0 k)
    (by show 512 * 0 + k.val = 0 + k.val; omega)

/-- The block cut to its columns `[512, 1024)` reads, at `(p, k)`, the block at column `k` of the upper half. -/
theorem slice_hi_at (X : FVec Ideal S256x1024 .f32) (p : Fin 256) (k : Fin 512) :
    extractStridedSlice S256x512 ![0, 512] X slices_S256x1024_o0_512_S256x512 (ix2 p k) = X (ix2 p (Cert.Spec.half 1 k)) :=
  slice2_axis1_apply 512 X slices_S256x1024_o0_512_S256x512 p k (Cert.Spec.half 1 k)
    (by show 512 * 1 + k.val = 512 + k.val; omega)

/-- A half block joined with an auxiliary block along the columns: at `(p, k)` the half's entry `k` for `k` below
    512, the auxiliary entry `k - 512` from there on. -/
theorem cat_at (a : FVec Ideal S256x512 .f32) (b : FVec Ideal S256x64 .f32) (p : Fin 256) (k : Fin 576) :
    concatenate S256x576 1 [⟨S256x512, a⟩, ⟨S256x64, b⟩] concatenates_S256x512_S256x64_S256x576_d1 (ix2 p k)
      = Cert.Spec.catAt (fun c => a (ix2 p c)) (fun c => b (ix2 p c)) k := by
  unfold Cert.Spec.catAt
  by_cases hk : k.val < 512
  · rw [dif_pos hk]
    exact concatenate_pair_apply_left (t := S256x576) (s₁ := S256x512) (s₂ := S256x64) 1 a b
      concatenates_S256x512_S256x64_S256x576_d1 (ix2 p k) rfl (ix2 p ⟨k.val, hk⟩)
      (fun c => match c with | ⟨0, _⟩ => rfl | ⟨1, _⟩ => rfl)
  · rw [dif_neg hk]
    exact concatenate_pair_apply_right (t := S256x576) (s₁ := S256x512) (s₂ := S256x64) 1 a b
      concatenates_S256x512_S256x64_S256x576_d1 (ix2 p k) rfl rfl
      (ix2 p ⟨k.val - 512, by have := k.isLt; omega⟩)
      (fun c hc => match c, hc with | ⟨0, _⟩, _ => rfl | ⟨1, _⟩, hc => absurd (Fin.ext rfl) hc)
      (by show (k.val - 512) + 512 = k.val; omega)

/-! ## The heads -/

/-- A head's second layer: the maximum of its first layer with the zero block, against the second weights, plus bias. -/
theorem pay1_at (v71 v72 : FVec Ideal S256x1024 .f32) (v75 : Vec Ideal S1024x256 .bf16) (v78 : Vec Ideal S1x256 .f32)
    (p : Fin 256) (j : Fin 256) :
    k0_pay1 (F := Ideal) v71 v72 v75 v78 (ix2 p j)
      = Cert.Spec.affineAt (fun k => max (v71 (ix2 p k)) (v72 (ix2 p k))) (fun r k => v75 (ix2 k r))
          (fun r => v78 (ix2 (0 : Fin 1) r)) j := by
  unfold k0_pay1
  rw [shapeCast_self, shapeCast_self]
  exact affine_at dot_S256x1024_S1024x256_S256x256_1_0_0_1_n_n rfl rfl rfl rfl rfl rfl _ v75 v78 _ p j

/-- The first head's first layer before the maximum: the lower half of the new hidden row joined with the auxiliary
    row, against the first weights, plus bias. -/
theorem pay11_at (v3 : Vec Ideal S256x1024 .f32) (v4 : FVec Ideal S256x1024 .bf16) (v11 : FVec Ideal S256x1024 .f32) (v18 : FVec Ideal S256x1024 .f32) (v25 : FVec Ideal S256x1024 .f32) (v32 : FVec Ideal S256x1024 .f32) (v33 : Vec Ideal S1024x1024 .bf16) (v36 : Vec Ideal S1x1024 .f32) (v40 : Vec Ideal S1024x1024 .bf16) (v43 : Vec Ideal S1x1024 .f32) (v62 : Vec Ideal S256x64 .f32) (v65 : Vec Ideal S576x1024 .bf16) (v68 : Vec Ideal S1x1024 .f32)
    (p : Fin 256) (j : Fin 1024) :
    k0_pay11 (F := Ideal) v3 v4 v11 v18 v25 v32 v33 v36 v40 v43 v62 v65 v68 (ix2 p j)
      = Cert.Spec.affineAt (Cert.Spec.catAt (fun k => k0_pay9 (F := Ideal) v3 v4 v11 v18 v25 v32 v33 v36 v40 v43 (ix2 p (Cert.Spec.half 0 k)))
            (fun k => v62 (ix2 p k))) (fun r k => v65 (ix2 k r)) (fun r => v68 (ix2 (0 : Fin 1) r)) j := by
  unfold k0_pay11
  rw [shapeCast_self, shapeCast_self]
  refine (affine_at dot_S256x576_S576x1024_S256x1024_1_0_0_1_n_n rfl rfl rfl rfl rfl rfl _ v65 v68 _ p j).trans ?_
  refine congrArg (fun row => Cert.Spec.affineAt row _ _ j) (funext fun k => ?_)
  refine (cat_at _ v62 p k).trans ?_
  refine congrArg (fun hh => Cert.Spec.catAt hh _ k) (funext fun c => ?_)
  exact slice_lo_at _ p c

/-- The upper half of the new hidden block at `(p, k)`. -/
theorem pay10_at (v3 : Vec Ideal S256x1024 .f32) (v4 : FVec Ideal S256x1024 .bf16) (v11 : FVec Ideal S256x1024 .f32) (v18 : FVec Ideal S256x1024 .f32) (v25 : FVec Ideal S256x1024 .f32) (v32 : FVec Ideal S256x1024 .f32) (v33 : Vec Ideal S1024x1024 .bf16) (v36 : Vec Ideal S1x1024 .f32) (v40 : Vec Ideal S1024x1024 .bf16) (v43 : Vec Ideal S1x1024 .f32) (p : Fin 256) (k : Fin 512) :
    k0_pay10 (F := Ideal) v3 v4 v11 v18 v25 v32 v33 v36 v40 v43 (ix2 p k) = k0_pay9 (F := Ideal) v3 v4 v11 v18 v25 v32 v33 v36 v40 v43 (ix2 p (Cert.Spec.half 1 k)) := by
  unfold k0_pay10
  exact slice_hi_at _ p k

/-- The second head, both layers, from a half block and an auxiliary block. -/
theorem pay2_at (v61 : FVec Ideal S256x512 .f32) (v83 : Vec Ideal S256x64 .f32) (v86 : Vec Ideal S576x1024 .bf16)
    (v89 : Vec Ideal S1x1024 .f32) (v96 : Vec Ideal S1024x256 .bf16) (v99 : Vec Ideal S1x256 .f32) (p : Fin 256) (j : Fin 256) :
    k0_pay2 (F := Ideal) v61 v83 v86 v89 v96 v99 (ix2 p j)
      = Cert.Spec.headAt (fun k => v61 (ix2 p k)) (fun k => v83 (ix2 p k)) (fun r k => v86 (ix2 k r))
          (fun r => v89 (ix2 (0 : Fin 1) r)) (fun r k => v96 (ix2 k r)) (fun r => v99 (ix2 (0 : Fin 1) r)) j := by
  unfold k0_pay2 Cert.Spec.headAt
  rw [shapeCast_self, shapeCast_self, shapeCast_self, shapeCast_self]
  refine (affine_at dot_S256x1024_S1024x256_S256x256_1_0_0_1_n_n rfl rfl rfl rfl rfl rfl _ v96 v99 _ p j).trans ?_
  refine congrArg (fun row => Cert.Spec.affineAt row _ _ j) (funext fun k => ?_)
  unfold Cert.Spec.hiddenAt
  refine congrArg (fun t => max t Cert.Spec.zero) ?_
  refine (affine_at dot_S256x576_S576x1024_S256x1024_1_0_0_1_n_n rfl rfl rfl rfl rfl rfl _ v86 v89 _ p k).trans ?_
  refine congrArg (fun row => Cert.Spec.affineAt row _ _ k) (funext fun c => ?_)
  exact cat_at v61 v83 p c

end BlockValue

open BlockValue

/-- The new hidden block at row `p`, entry `j`. -/
theorem hiddenBlock_at (x0 : Vec Ideal S256x194 .f32) (x1 : Vec Ideal S256x1024 .f32) (x2 : Vec Ideal S256x64 .f32) (x3 : Vec Ideal S256x64 .f32) (x4 : Vec Ideal S194x1024 .bf16) (x5 : Vec Ideal S194x1024 .bf16) (x6 : Vec Ideal S194x1024 .bf16) (x7 : Vec Ideal S1024x1024 .bf16) (x8 : Vec Ideal S1024x1024 .bf16) (x9 : Vec Ideal S1024x1024 .bf16) (x10 : Vec Ideal S1x1024 .f32) (x11 : Vec Ideal S1x1024 .f32) (x12 : Vec Ideal S1x1024 .f32) (x13 : Vec Ideal S1x1024 .f32) (x14 : Vec Ideal S1x1024 .f32) (x15 : Vec Ideal S1x1024 .f32) (x16 : Vec Ideal S576x1024 .bf16) (x17 : Vec Ideal S1x1024 .f32) (x18 : Vec Ideal S1024x256 .bf16) (x19 : Vec Ideal S1x256 .f32) (x20 : Vec Ideal S576x1024 .bf16) (x21 : Vec Ideal S1x1024 .f32) (x22 : Vec Ideal S1024x256 .bf16) (x23 : Vec Ideal S1x256 .f32) (p : Fin 256) (j : Fin 1024) :
    hiddenBlock (F := Ideal) x0 x1 x2 x3 x4 x5 x6 x7 x8 x9 x10 x11 x12 x13 x14 x15 x16 x17 x18 x19 x20 x21 x22 x23 (ix2 p j)
      = Cert.Spec.gruAt (fun k => x0 (ix2 p k)) (fun k => x1 (ix2 p k))
          (fun r k => x4 (ix2 k r)) (fun r k => x5 (ix2 k r)) (fun r k => x6 (ix2 k r))
          (fun r k => x7 (ix2 k r)) (fun r k => x8 (ix2 k r)) (fun r k => x9 (ix2 k r))
          (fun r => x10 (ix2 (0 : Fin 1) r)) (fun r => x11 (ix2 (0 : Fin 1) r)) (fun r => x12 (ix2 (0 : Fin 1) r))
          (fun r => x13 (ix2 (0 : Fin 1) r)) (fun r => x14 (ix2 (0 : Fin 1) r)) (fun r => x15 (ix2 (0 : Fin 1) r)) j := by
  unfold hiddenBlock
  simp only [View.ld_unit_zero (S := S256x194) hz2, View.ld_unit_zero (S := S256x1024) hz2, View.ld_unit_zero (S := S256x64) hz2, View.ld_unit_zero (S := S194x1024) hz2, View.ld_unit_zero (S := S1024x1024) hz2, View.ld_unit_zero (S := S1x1024) hz2, View.ld_unit_zero (S := S576x1024) hz2, View.ld_unit_zero (S := S1024x256) hz2, View.ld_unit_zero (S := S1x256) hz2]
  refine (pay9_at x1 (k0_pay4 x1) (k0_pay5 x0 x4 x10) (k0_pay6 x0 x5 x11) (k0_pay7 x0 x6 x12) (k0_pay8 x1 x7 x13)
    x8 x14 x9 x15 p j).trans ?_
  rw [pay5_at, pay6_at, pay7_at, pay8_at]
  rfl

/-- The first head's block at row `p`, entry `j`: the lower half of the new hidden row, the first auxiliary row. -/
theorem headBlock0_at (x0 : Vec Ideal S256x194 .f32) (x1 : Vec Ideal S256x1024 .f32) (x2 : Vec Ideal S256x64 .f32) (x3 : Vec Ideal S256x64 .f32) (x4 : Vec Ideal S194x1024 .bf16) (x5 : Vec Ideal S194x1024 .bf16) (x6 : Vec Ideal S194x1024 .bf16) (x7 : Vec Ideal S1024x1024 .bf16) (x8 : Vec Ideal S1024x1024 .bf16) (x9 : Vec Ideal S1024x1024 .bf16) (x10 : Vec Ideal S1x1024 .f32) (x11 : Vec Ideal S1x1024 .f32) (x12 : Vec Ideal S1x1024 .f32) (x13 : Vec Ideal S1x1024 .f32) (x14 : Vec Ideal S1x1024 .f32) (x15 : Vec Ideal S1x1024 .f32) (x16 : Vec Ideal S576x1024 .bf16) (x17 : Vec Ideal S1x1024 .f32) (x18 : Vec Ideal S1024x256 .bf16) (x19 : Vec Ideal S1x256 .f32) (x20 : Vec Ideal S576x1024 .bf16) (x21 : Vec Ideal S1x1024 .f32) (x22 : Vec Ideal S1024x256 .bf16) (x23 : Vec Ideal S1x256 .f32) (p : Fin 256) (j : Fin 256) :
    headBlock0 (F := Ideal) x0 x1 x2 x3 x4 x5 x6 x7 x8 x9 x10 x11 x12 x13 x14 x15 x16 x17 x18 x19 x20 x21 x22 x23 (ix2 p j)
      = Cert.Spec.headAt (fun k => hiddenBlock (F := Ideal) x0 x1 x2 x3 x4 x5 x6 x7 x8 x9 x10 x11 x12 x13 x14 x15 x16 x17 x18 x19 x20 x21 x22 x23 (ix2 p (Cert.Spec.half 0 k))) (fun k => x2 (ix2 p k))
          (fun r k => x16 (ix2 k r)) (fun r => x17 (ix2 (0 : Fin 1) r)) (fun r k => x18 (ix2 k r)) (fun r => x19 (ix2 (0 : Fin 1) r)) j := by
  unfold headBlock0 hiddenBlock
  simp only [View.ld_unit_zero (S := S256x194) hz2, View.ld_unit_zero (S := S256x1024) hz2, View.ld_unit_zero (S := S256x64) hz2, View.ld_unit_zero (S := S194x1024) hz2, View.ld_unit_zero (S := S1024x1024) hz2, View.ld_unit_zero (S := S1x1024) hz2, View.ld_unit_zero (S := S576x1024) hz2, View.ld_unit_zero (S := S1024x256) hz2, View.ld_unit_zero (S := S1x256) hz2]
  refine (pay1_at _ _ x18 x19 p j).trans ?_
  unfold Cert.Spec.headAt
  refine congrArg (fun row => Cert.Spec.affineAt row _ _ j) (funext fun k => ?_)
  unfold Cert.Spec.hiddenAt
  refine congrArg (fun t => max t Cert.Spec.zero) ?_
  exact pay11_at _ _ _ _ _ _ _ _ _ _ x2 x16 x17 p k

/-- The second head's block at row `p`, entry `j`: the upper half of the new hidden row, the second auxiliary row. -/
theorem headBlock1_at (x0 : Vec Ideal S256x194 .f32) (x1 : Vec Ideal S256x1024 .f32) (x2 : Vec Ideal S256x64 .f32) (x3 : Vec Ideal S256x64 .f32) (x4 : Vec Ideal S194x1024 .bf16) (x5 : Vec Ideal S194x1024 .bf16) (x6 : Vec Ideal S194x1024 .bf16) (x7 : Vec Ideal S1024x1024 .bf16) (x8 : Vec Ideal S1024x1024 .bf16) (x9 : Vec Ideal S1024x1024 .bf16) (x10 : Vec Ideal S1x1024 .f32) (x11 : Vec Ideal S1x1024 .f32) (x12 : Vec Ideal S1x1024 .f32) (x13 : Vec Ideal S1x1024 .f32) (x14 : Vec Ideal S1x1024 .f32) (x15 : Vec Ideal S1x1024 .f32) (x16 : Vec Ideal S576x1024 .bf16) (x17 : Vec Ideal S1x1024 .f32) (x18 : Vec Ideal S1024x256 .bf16) (x19 : Vec Ideal S1x256 .f32) (x20 : Vec Ideal S576x1024 .bf16) (x21 : Vec Ideal S1x1024 .f32) (x22 : Vec Ideal S1024x256 .bf16) (x23 : Vec Ideal S1x256 .f32) (p : Fin 256) (j : Fin 256) :
    headBlock1 (F := Ideal) x0 x1 x2 x3 x4 x5 x6 x7 x8 x9 x10 x11 x12 x13 x14 x15 x16 x17 x18 x19 x20 x21 x22 x23 (ix2 p j)
      = Cert.Spec.headAt (fun k => hiddenBlock (F := Ideal) x0 x1 x2 x3 x4 x5 x6 x7 x8 x9 x10 x11 x12 x13 x14 x15 x16 x17 x18 x19 x20 x21 x22 x23 (ix2 p (Cert.Spec.half 1 k))) (fun k => x3 (ix2 p k))
          (fun r k => x20 (ix2 k r)) (fun r => x21 (ix2 (0 : Fin 1) r)) (fun r k => x22 (ix2 k r)) (fun r => x23 (ix2 (0 : Fin 1) r)) j := by
  unfold headBlock1 hiddenBlock
  simp only [View.ld_unit_zero (S := S256x194) hz2, View.ld_unit_zero (S := S256x1024) hz2, View.ld_unit_zero (S := S256x64) hz2, View.ld_unit_zero (S := S194x1024) hz2, View.ld_unit_zero (S := S1024x1024) hz2, View.ld_unit_zero (S := S1x1024) hz2, View.ld_unit_zero (S := S576x1024) hz2, View.ld_unit_zero (S := S1024x256) hz2, View.ld_unit_zero (S := S1x256) hz2]
  refine (pay2_at _ x3 x20 x21 x22 x23 p j).trans ?_
  refine congrArg (fun hh => Cert.Spec.headAt hh _ _ _ _ _ j) (funext fun k => ?_)
  exact pay10_at _ _ _ _ _ _ _ _ _ _ p k

end Cert.KernelIdeal.Hand

end
-- ==== Proof.KIFinal.lean ====
/-
  From blocks to arrays: what the idealized kernel's three result arrays hold after the run.

  At grid point `t` the body writes the block of batch rows `256 t … 256 t + 255` of each result. By the block-value lemmas
  an entry of that block is the specification's row function of row `p` of the input blocks, and by the block-read lemmas
  those rows are rows `256 t + p` of the argument arrays (and of the joined features), the weight blocks the bands of the
  stacked weights. So the block is a block of the specification's array; the 64 blocks tile the 16384 batch rows; hence
  each result array ends as the specification's array.
-/
import proofs.«133260_j481036337285_1_alg».proof.Proof.KIRun
import proofs.«133260_j481036337285_1_alg».proof.Proof.KIBlocksA
import proofs.«133260_j481036337285_1_alg».proof.Proof.KIBlocksB
import proofs.«133260_j481036337285_1_alg».proof.Proof.KIBlockValue
import proofs.«133260_j481036337285_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The specification's arrays at this program's arguments -/

/-- The new hidden state. -/
def hiddenFinal (c : Dev nD) : Cert.Spec.Mat 16384 1024 := Cert.Spec.hiddenArr (joined m c) (m ((c : Thread nD τ).loc main_arg5) : Cert.Spec.Mat 16384 1024) (m ((c : Thread nD τ).loc main_arg6) : Cert.Spec.Mat 3072 194) (m ((c : Thread nD τ).loc main_arg7) : Cert.Spec.Mat 3072 1024) (m ((c : Thread nD τ).loc main_arg8) : Cert.Spec.Vc 3072) (m ((c : Thread nD τ).loc main_arg9) : Cert.Spec.Vc 3072)
/-- The first head: the lower half of the new hidden state, the first auxiliary array. -/
def head0Final (c : Dev nD) : Cert.Spec.Mat 16384 256 := Cert.Spec.headArr (Cert.Spec.newHidden (joined m c) (m ((c : Thread nD τ).loc main_arg5) : Cert.Spec.Mat 16384 1024) (m ((c : Thread nD τ).loc main_arg6) : Cert.Spec.Mat 3072 194) (m ((c : Thread nD τ).loc main_arg7) : Cert.Spec.Mat 3072 1024) (m ((c : Thread nD τ).loc main_arg8) : Cert.Spec.Vc 3072) (m ((c : Thread nD τ).loc main_arg9) : Cert.Spec.Vc 3072)) 0 (m ((c : Thread nD τ).loc main_arg3) : Cert.Spec.Mat 16384 64) (m ((c : Thread nD τ).loc main_arg10) : Cert.Spec.Mat 1024 576) (m ((c : Thread nD τ).loc main_arg11) : Cert.Spec.Vc 1024) (m ((c : Thread nD τ).loc main_arg12) : Cert.Spec.Mat 256 1024) (m ((c : Thread nD τ).loc main_arg13) : Cert.Spec.Vc 256)
/-- The second head: the upper half of the new hidden state, the second auxiliary array. -/
def head1Final (c : Dev nD) : Cert.Spec.Mat 16384 256 := Cert.Spec.headArr (Cert.Spec.newHidden (joined m c) (m ((c : Thread nD τ).loc main_arg5) : Cert.Spec.Mat 16384 1024) (m ((c : Thread nD τ).loc main_arg6) : Cert.Spec.Mat 3072 194) (m ((c : Thread nD τ).loc main_arg7) : Cert.Spec.Mat 3072 1024) (m ((c : Thread nD τ).loc main_arg8) : Cert.Spec.Vc 3072) (m ((c : Thread nD τ).loc main_arg9) : Cert.Spec.Vc 3072)) 1 (m ((c : Thread nD τ).loc main_arg4) : Cert.Spec.Mat 16384 64) (m ((c : Thread nD τ).loc main_arg14) : Cert.Spec.Mat 1024 576) (m ((c : Thread nD τ).loc main_arg15) : Cert.Spec.Vc 1024) (m ((c : Thread nD τ).loc main_arg16) : Cert.Spec.Mat 256 1024) (m ((c : Thread nD τ).loc main_arg17) : Cert.Spec.Vc 256)

/-! ## One grid point's blocks, entry by entry -/

theorem hidden_point (c : Dev nD) (t : Fin cfg0.N) (p : Fin 256) (q : Fin 1024) :
    hiddenBlock (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = Cert.Spec.newHidden (joined m c) (m ((c : Thread nD τ).loc main_arg5) : Cert.Spec.Mat 16384 1024) (m ((c : Thread nD τ).loc main_arg6) : Cert.Spec.Mat 3072 194) (m ((c : Thread nD τ).loc main_arg7) : Cert.Spec.Mat 3072 1024) (m ((c : Thread nD τ).loc main_arg8) : Cert.Spec.Vc 3072) (m ((c : Thread nD τ).loc main_arg9) : Cert.Spec.Vc 3072) (brow t p) q := by
  refine (hiddenBlock_at (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) p q).trans ?_
  unfold Cert.Spec.newHidden
  simp only [blk0_at, blk1_at, blk4_at, blk5_at, blk6_at, blk7_at, blk8_at, blk9_at, blk10_at, blk11_at, blk12_at, blk13_at, blk14_at, blk15_at]

theorem hidden_point' (c : Dev nD) (t : Fin cfg0.N) (p : Fin 256) (q : Fin 1024) :
    hiddenBlock (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = hiddenFinal m c (ix2 (brow t p) q) :=
  hidden_point m c t p q

theorem head0_point (c : Dev nD) (t : Fin cfg0.N) (p : Fin 256) (q : Fin 256) :
    headBlock0 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = head0Final m c (ix2 (brow t p) q) := by
  refine (headBlock0_at (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) p q).trans ?_
  unfold head0Final
  rw [Cert.Spec.headArr_ix2]
  simp only [hidden_point m c t, blk2_at, blk16_at, blk17_at, blk18_at, blk19_at]

theorem head1_point (c : Dev nD) (t : Fin cfg0.N) (p : Fin 256) (q : Fin 256) :
    headBlock1 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = head1Final m c (ix2 (brow t p) q) := by
  refine (headBlock1_at (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) p q).trans ?_
  unfold head1Final
  rw [Cert.Spec.headArr_ix2]
  simp only [hidden_point m c t, blk3_at, blk20_at, blk21_at, blk22_at, blk23_at]

/-! ## The result windows' index maps, decided over the grid: block `(t, 0)` at grid point `t` -/

theorem out_idx24 : ∀ t : Fin cfg0.N, win0_24.index t (0 : Fin 2) = t.val ∧ win0_24.index t (1 : Fin 2) = 0 :=
  (by decide +kernel : ∀ t : Fin grid0.N, _)
theorem out_idx25 : ∀ t : Fin cfg0.N, win0_25.index t (0 : Fin 2) = t.val ∧ win0_25.index t (1 : Fin 2) = 0 :=
  (by decide +kernel : ∀ t : Fin grid0.N, _)
theorem out_idx26 : ∀ t : Fin cfg0.N, win0_26.index t (0 : Fin 2) = t.val ∧ win0_26.index t (1 : Fin 2) = 0 :=
  (by decide +kernel : ∀ t : Fin grid0.N, _)

/-! ### Result window 24 -/

/-- Entry `(p, q)` of the block at grid point `t` sits at batch row `256 t + p`, column `q`, of the array. -/
theorem emb24 (t : Fin cfg0.N) (p : Fin 256) (q : Fin 256) :
    ((cfg0.win 24).blk t).view.emb (ix2 p q) = (ix2 (brow t p) q : S16384x256.Idx) := by
  obtain ⟨e0, e1⟩ := out_idx24 t
  funext a; apply Fin.ext
  match a with
  | ⟨0, _⟩ => show win0_24.index t (0 : Fin 2) * 256 + 1 * p.val = 256 * t.val + p.val; omega
  | ⟨1, _⟩ => show win0_24.index t (1 : Fin 2) * 256 + 1 * q.val = q.val; omega

/-- What grid point `t` writes back is block `t` of the specification's array. -/
theorem flushed24_eq (c : Dev nD) (t : Fin cfg0.N) :
    (dats m 0 c).flushed 24 t = ((cfg0.win 24).blk t).view.read (Elt Ideal) (head0Final m c) := by
  show (cfg0.win 24).cut (grid0.coords t) ((dats m 0 c).after 24 t) = _
  rw [after24]
  unfold out24
  rw [View.canon_unit_zero hz]
  funext j
  obtain ⟨p, q, rfl⟩ : ∃ (p : Fin 256) (q : Fin 256), j = ix2 p q := ⟨j 0, j 1, eq_ix2 j⟩
  show headBlock0 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = head0Final m c (((cfg0.win 24).blk t).view.emb (ix2 p q))
  rw [emb24 t p q]
  exact head0_point m c t p q

/-- An index of the array is in grid point `t`'s block iff each coordinate is in the block's range on its axis. -/
theorem mem_blk24 (t : Fin cfg0.N) (i : S16384x256.Idx) :
    i ∈ ((cfg0.win 24).blk t).view.set ↔ ∀ a : Fin 2, win0_24.index t a * S256x256.size a ≤ (i a).val ∧ (i a).val < win0_24.index t a * S256x256.size a + S256x256.size a := by
  show i ∈ ((View.whole main_v43_0).slice (win0_24.rect t)).set ↔ _
  rw [View.set_slice_whole, Rect.mem_set_unit]
  exact Iff.rfl

/-- Every index of the array is in the block of the grid point its batch row falls in. -/
theorem cover24 (i : S16384x256.Idx) :
    ∃ t : Fin cfg0.N, (cfg0.win 24).flush t = true ∧ i ∈ ((cfg0.win 24).blk t).view.set := by
  have hi0 : (i 0).val < 16384 := (i 0).isLt
  have hi1 : (i 1).val < 256 := (i 1).isLt
  refine ⟨⟨(i 0).val / 256, lt_of_lt_of_eq (by omega : (i 0).val / 256 < 64) N_0.symm⟩, flush0_24 _, ?_⟩
  rw [mem_blk24]
  obtain ⟨e0, e1⟩ := out_idx24 ⟨(i 0).val / 256, lt_of_lt_of_eq (by omega : (i 0).val / 256 < 64) N_0.symm⟩
  intro a
  match a with
  | ⟨0, _⟩ => show win0_24.index _ (0 : Fin 2) * 256 ≤ (i 0).val ∧ (i 0).val < win0_24.index _ (0 : Fin 2) * 256 + 256; rw [e0]; show (i 0).val / 256 * 256 ≤ (i 0).val ∧ (i 0).val < (i 0).val / 256 * 256 + 256; omega
  | ⟨1, _⟩ => show win0_24.index _ (1 : Fin 2) * 256 ≤ (i 1).val ∧ (i 1).val < win0_24.index _ (1 : Fin 2) * 256 + 256; rw [e1]; omega

/-- The array after the run. -/
theorem final24 (c : Dev nD) : (dats m 0 c).arrAt 24 cfg0.N = head0Final m c :=
  (dats m 0 c).arrAt_eq_of_cover 24 (head0Final m c) (fun t _ => flushed24_eq m c t) cover24

/-! ### Result window 25 -/

/-- Entry `(p, q)` of the block at grid point `t` sits at batch row `256 t + p`, column `q`, of the array. -/
theorem emb25 (t : Fin cfg0.N) (p : Fin 256) (q : Fin 256) :
    ((cfg0.win 25).blk t).view.emb (ix2 p q) = (ix2 (brow t p) q : S16384x256.Idx) := by
  obtain ⟨e0, e1⟩ := out_idx25 t
  funext a; apply Fin.ext
  match a with
  | ⟨0, _⟩ => show win0_25.index t (0 : Fin 2) * 256 + 1 * p.val = 256 * t.val + p.val; omega
  | ⟨1, _⟩ => show win0_25.index t (1 : Fin 2) * 256 + 1 * q.val = q.val; omega

/-- What grid point `t` writes back is block `t` of the specification's array. -/
theorem flushed25_eq (c : Dev nD) (t : Fin cfg0.N) :
    (dats m 0 c).flushed 25 t = ((cfg0.win 25).blk t).view.read (Elt Ideal) (head1Final m c) := by
  show (cfg0.win 25).cut (grid0.coords t) ((dats m 0 c).after 25 t) = _
  rw [after25]
  unfold out25
  rw [View.canon_unit_zero hz]
  funext j
  obtain ⟨p, q, rfl⟩ : ∃ (p : Fin 256) (q : Fin 256), j = ix2 p q := ⟨j 0, j 1, eq_ix2 j⟩
  show headBlock1 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = head1Final m c (((cfg0.win 25).blk t).view.emb (ix2 p q))
  rw [emb25 t p q]
  exact head1_point m c t p q

/-- An index of the array is in grid point `t`'s block iff each coordinate is in the block's range on its axis. -/
theorem mem_blk25 (t : Fin cfg0.N) (i : S16384x256.Idx) :
    i ∈ ((cfg0.win 25).blk t).view.set ↔ ∀ a : Fin 2, win0_25.index t a * S256x256.size a ≤ (i a).val ∧ (i a).val < win0_25.index t a * S256x256.size a + S256x256.size a := by
  show i ∈ ((View.whole main_v43_1).slice (win0_25.rect t)).set ↔ _
  rw [View.set_slice_whole, Rect.mem_set_unit]
  exact Iff.rfl

/-- Every index of the array is in the block of the grid point its batch row falls in. -/
theorem cover25 (i : S16384x256.Idx) :
    ∃ t : Fin cfg0.N, (cfg0.win 25).flush t = true ∧ i ∈ ((cfg0.win 25).blk t).view.set := by
  have hi0 : (i 0).val < 16384 := (i 0).isLt
  have hi1 : (i 1).val < 256 := (i 1).isLt
  refine ⟨⟨(i 0).val / 256, lt_of_lt_of_eq (by omega : (i 0).val / 256 < 64) N_0.symm⟩, flush0_25 _, ?_⟩
  rw [mem_blk25]
  obtain ⟨e0, e1⟩ := out_idx25 ⟨(i 0).val / 256, lt_of_lt_of_eq (by omega : (i 0).val / 256 < 64) N_0.symm⟩
  intro a
  match a with
  | ⟨0, _⟩ => show win0_25.index _ (0 : Fin 2) * 256 ≤ (i 0).val ∧ (i 0).val < win0_25.index _ (0 : Fin 2) * 256 + 256; rw [e0]; show (i 0).val / 256 * 256 ≤ (i 0).val ∧ (i 0).val < (i 0).val / 256 * 256 + 256; omega
  | ⟨1, _⟩ => show win0_25.index _ (1 : Fin 2) * 256 ≤ (i 1).val ∧ (i 1).val < win0_25.index _ (1 : Fin 2) * 256 + 256; rw [e1]; omega

/-- The array after the run. -/
theorem final25 (c : Dev nD) : (dats m 0 c).arrAt 25 cfg0.N = head1Final m c :=
  (dats m 0 c).arrAt_eq_of_cover 25 (head1Final m c) (fun t _ => flushed25_eq m c t) cover25

/-! ### Result window 26 -/

/-- Entry `(p, q)` of the block at grid point `t` sits at batch row `256 t + p`, column `q`, of the array. -/
theorem emb26 (t : Fin cfg0.N) (p : Fin 256) (q : Fin 1024) :
    ((cfg0.win 26).blk t).view.emb (ix2 p q) = (ix2 (brow t p) q : S16384x1024.Idx) := by
  obtain ⟨e0, e1⟩ := out_idx26 t
  funext a; apply Fin.ext
  match a with
  | ⟨0, _⟩ => show win0_26.index t (0 : Fin 2) * 256 + 1 * p.val = 256 * t.val + p.val; omega
  | ⟨1, _⟩ => show win0_26.index t (1 : Fin 2) * 1024 + 1 * q.val = q.val; omega

/-- What grid point `t` writes back is block `t` of the specification's array. -/
theorem flushed26_eq (c : Dev nD) (t : Fin cfg0.N) :
    (dats m 0 c).flushed 26 t = ((cfg0.win 26).blk t).view.read (Elt Ideal) (hiddenFinal m c) := by
  show (cfg0.win 26).cut (grid0.coords t) ((dats m 0 c).after 26 t) = _
  rw [after26]
  unfold out26
  rw [View.canon_unit_zero hz]
  funext j
  obtain ⟨p, q, rfl⟩ : ∃ (p : Fin 256) (q : Fin 1024), j = ix2 p q := ⟨j 0, j 1, eq_ix2 j⟩
  show hiddenBlock (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (ix2 p q) = hiddenFinal m c (((cfg0.win 26).blk t).view.emb (ix2 p q))
  rw [emb26 t p q]
  exact hidden_point' m c t p q

/-- An index of the array is in grid point `t`'s block iff each coordinate is in the block's range on its axis. -/
theorem mem_blk26 (t : Fin cfg0.N) (i : S16384x1024.Idx) :
    i ∈ ((cfg0.win 26).blk t).view.set ↔ ∀ a : Fin 2, win0_26.index t a * S256x1024.size a ≤ (i a).val ∧ (i a).val < win0_26.index t a * S256x1024.size a + S256x1024.size a := by
  show i ∈ ((View.whole main_v43_2).slice (win0_26.rect t)).set ↔ _
  rw [View.set_slice_whole, Rect.mem_set_unit]
  exact Iff.rfl

/-- Every index of the array is in the block of the grid point its batch row falls in. -/
theorem cover26 (i : S16384x1024.Idx) :
    ∃ t : Fin cfg0.N, (cfg0.win 26).flush t = true ∧ i ∈ ((cfg0.win 26).blk t).view.set := by
  have hi0 : (i 0).val < 16384 := (i 0).isLt
  have hi1 : (i 1).val < 1024 := (i 1).isLt
  refine ⟨⟨(i 0).val / 256, lt_of_lt_of_eq (by omega : (i 0).val / 256 < 64) N_0.symm⟩, flush0_26 _, ?_⟩
  rw [mem_blk26]
  obtain ⟨e0, e1⟩ := out_idx26 ⟨(i 0).val / 256, lt_of_lt_of_eq (by omega : (i 0).val / 256 < 64) N_0.symm⟩
  intro a
  match a with
  | ⟨0, _⟩ => show win0_26.index _ (0 : Fin 2) * 256 ≤ (i 0).val ∧ (i 0).val < win0_26.index _ (0 : Fin 2) * 256 + 256; rw [e0]; show (i 0).val / 256 * 256 ≤ (i 0).val ∧ (i 0).val < (i 0).val / 256 * 256 + 256; omega
  | ⟨1, _⟩ => show win0_26.index _ (1 : Fin 2) * 1024 ≤ (i 1).val ∧ (i 1).val < win0_26.index _ (1 : Fin 2) * 1024 + 1024; rw [e1]; omega

/-- The array after the run. -/
theorem final26 (c : Dev nD) : (dats m 0 c).arrAt 26 cfg0.N = hiddenFinal m c :=
  (dats m 0 c).arrAt_eq_of_cover 26 (hiddenFinal m c) (fun t _ => flushed26_eq m c t) cover26

/-! ## The run, with the three results named -/

/-- Every weakly fair execution of the idealized kernel's program terminates with the two heads' outputs and the new
    hidden state at the specification's arrays, and every argument array as it started. -/
theorem value_run : θ_run defs (onTc (τ := τ) (main (F := Ideal))) ⟨m, fun _ => 0, ρ⟩ (fun r => ∀ c : Dev nD,
      r.2.mem ((c.tc : Thread nD τ).loc main_v43_0) = head0Final m c
      ∧ r.2.mem ((c.tc : Thread nD τ).loc main_v43_1) = head1Final m c
      ∧ r.2.mem ((c.tc : Thread nD τ).loc main_v43_2) = hiddenFinal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 24).trans (final24 m c), ((h c).1 25).trans (final25 m c), ((h c).1 26).trans (final26 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 1).trans (((dats m 0 c).arrAt_in 1 rfl _).trans ((A_eq m c 1).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) (run_main m ρ)

end Cert.KernelIdeal.Hand

end
-- ==== Proof.RefStages.lean ====
/-
  The reference program's three results are the row-by-row specification.

  The reference joins the three feature arrays, multiplies the joined features by the whole stacked input weights and
  the hidden state by the whole stacked hidden weights, adds the biases, and only then cuts the three gates out as column
  bands; its sigmoid is spelt `1 / (1 + exp (−x))`. Read at batch row `b` and entry `j`, each band of a product is the sum
  over the feature axis against the corresponding ROW band of the stacked weights, so the new hidden state is the
  specification's, and each head — half of the new hidden row joined with its auxiliary features, an affine map, a maximum
  with zero, a second affine map — is the specification's head.
-/
import proofs.«133260_j481036337285_1_alg».proof.Proof.Gen.ReferenceIdeal.Run
import proofs.«133260_j481036337285_1_alg».proof.Proof.Gen.ReferenceIdeal.Read
import proofs.«133260_j481036337285_1_alg».proof.Proof.Spec

noncomputable section

open scoped BigOperators

namespace Cert.ReferenceIdeal.Stages

open Cert.ReferenceIdeal Cert.ReferenceIdeal.Read Idealize.ShloMosaic Idealize.ShloMosaic.ValueIdx

/-! ## The splat constants -/

/-- The first sigmoid's inner one. -/
theorem v20_at (i : S16384x1024.Idx) : val_main_v20 (F := Ideal) i = Cert.Spec.one := by
  rw [val_main_v20_apply, val_main_cst_apply]; rfl
/-- The first sigmoid's numerator. -/
theorem v22_at (i : S16384x1024.Idx) : val_main_v22 (F := Ideal) i = Cert.Spec.one := by
  rw [val_main_v22_apply, val_main_cst_0_apply]; rfl
/-- The second sigmoid's inner one. -/
theorem v27_at (i : S16384x1024.Idx) : val_main_v27 (F := Ideal) i = Cert.Spec.one := by
  rw [val_main_v27_apply, val_main_cst_1_apply]; rfl
/-- The second sigmoid's numerator. -/
theorem v29_at (i : S16384x1024.Idx) : val_main_v29 (F := Ideal) i = Cert.Spec.one := by
  rw [val_main_v29_apply, val_main_cst_2_apply]; rfl
/-- The one the update gate is subtracted from. -/
theorem v34_at (i : S16384x1024.Idx) : val_main_v34 (F := Ideal) i = Cert.Spec.one := by
  rw [val_main_v34_apply, val_main_cst_3_apply]; rfl

/-- The reference's spelling of the sigmoid, `1 / (1 + exp (−x))` with both ones the single-precision word, is the
    logistic function. -/
theorem sigmoid_spelt (x : EReal) :
    Ideal.div Cert.Spec.one (Cert.Spec.one + Ideal.exp (-x)) = Ideal.logistic x := by
  rw [Cert.Spec.one_eq]; rfl

/-! ## The two products with the stacked weights, read at a row and a column -/

/-- The joined features against the stacked input weights, plus the input bias: entry `(p, c)` is the affine map's
    entry `c` on row `p`. -/
theorem v5_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x6 : (⟨S3072x194, .f32⟩ : BufTy).Contents (Elt Ideal)) (x8 : (⟨S3072, .f32⟩ : BufTy).Contents (Elt Ideal)) (p : Fin 16384) (c : Fin 3072) :
    val_main_v5 (F := Ideal) x0 x1 x2 x6 x8 (ix2 p c)
      = Cert.Spec.affineAt (fun k => val_main_v0 (F := Ideal) x0 x1 x2 (ix2 p k)) (fun r k => x6 (ix2 r k))
          (fun r => x8 (ix1 r)) c := by
  rw [val_main_v5_apply, val_main_v2_apply, val_main_v4_apply, val_main_v3_apply]
  show (∑ k : Fin 194, _) + _ = (∑ k : Fin 194, _) + _
  have eb : idx_main_v3 (idx_main_v4 (ix2 p c)) = ix1 c := funext fun a => by match a with | ⟨0, _⟩ => rfl
  rw [eb]
  refine congrArg (· + x8 (ix1 c)) (Finset.sum_congr rfl fun k _ => ?_)
  have el : lidx_main_v2 (ix2 p c) k = ix2 p k := funext fun a => by match a with | ⟨0, _⟩ => rfl | ⟨1, _⟩ => rfl
  have er : idx_main_v1 (ridx_main_v2 (ix2 p c) k) = ix2 c k :=
    funext fun a => by match a with | ⟨0, _⟩ => rfl | ⟨1, _⟩ => rfl
  rw [val_main_v1_apply, el, er]

/-- The hidden state against the stacked hidden weights, plus the hidden bias, likewise. -/
theorem v10_at (x5 : (⟨S16384x1024, .f32⟩ : BufTy).Contents (Elt Ideal)) (x7 : (⟨S3072x1024, .f32⟩ : BufTy).Contents (Elt Ideal)) (x9 : (⟨S3072, .f32⟩ : BufTy).Contents (Elt Ideal)) (p : Fin 16384) (c : Fin 3072) :
    val_main_v10 (F := Ideal) x5 x7 x9 (ix2 p c)
      = Cert.Spec.affineAt (fun k => x5 (ix2 p k)) (fun r k => x7 (ix2 r k)) (fun r => x9 (ix1 r)) c := by
  rw [val_main_v10_apply, val_main_v7_apply, val_main_v9_apply, val_main_v8_apply]
  show (∑ k : Fin 1024, _) + _ = (∑ k : Fin 1024, _) + _
  have eb : idx_main_v8 (idx_main_v9 (ix2 p c)) = ix1 c := funext fun a => by match a with | ⟨0, _⟩ => rfl
  rw [eb]
  refine congrArg (· + x9 (ix1 c)) (Finset.sum_congr rfl fun k _ => ?_)
  have el : lidx_main_v7 (ix2 p c) k = ix2 p k := funext fun a => by match a with | ⟨0, _⟩ => rfl | ⟨1, _⟩ => rfl
  have er : idx_main_v6 (ridx_main_v7 (ix2 p c) k) = ix2 c k :=
    funext fun a => by match a with | ⟨0, _⟩ => rfl | ⟨1, _⟩ => rfl
  rw [val_main_v6_apply, el, er]

/-! ## The six column bands: band `g` at column `j` is column `1024 g + j`, row `1024 g + j` of the stacked weights -/

/-- The reset gate's input part. -/
theorem v11_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x6 : (⟨S3072x194, .f32⟩ : BufTy).Contents (Elt Ideal)) (x8 : (⟨S3072, .f32⟩ : BufTy).Contents (Elt Ideal)) (b : Fin 16384) (j : Fin 1024) :
    val_main_v11 (F := Ideal) x0 x1 x2 x6 x8 (ix2 b j)
      = Cert.Spec.affineAt (fun k => val_main_v0 (F := Ideal) x0 x1 x2 (ix2 b k)) (fun r k => x6 (ix2 (Cert.Spec.grow 0 r) k))
          (fun r => x8 (ix1 (Cert.Spec.grow 0 r))) j := by
  have e : idx_main_v11 (ix2 b j) = ix2 b (Cert.Spec.grow 0 j) := funext fun a => Fin.ext (by
    match a with
    | ⟨0, _⟩ => rfl
    | ⟨1, _⟩ => show (j : ℕ) = 1024 * ((0 : Fin 3) : ℕ) + (j : ℕ); simp)
  rw [val_main_v11_apply, e]
  exact v5_at x0 x1 x2 x6 x8 b (Cert.Spec.grow 0 j)

/-- The update gate's input part. -/
theorem v12_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x6 : (⟨S3072x194, .f32⟩ : BufTy).Contents (Elt Ideal)) (x8 : (⟨S3072, .f32⟩ : BufTy).Contents (Elt Ideal)) (b : Fin 16384) (j : Fin 1024) :
    val_main_v12 (F := Ideal) x0 x1 x2 x6 x8 (ix2 b j)
      = Cert.Spec.affineAt (fun k => val_main_v0 (F := Ideal) x0 x1 x2 (ix2 b k)) (fun r k => x6 (ix2 (Cert.Spec.grow 1 r) k))
          (fun r => x8 (ix1 (Cert.Spec.grow 1 r))) j := by
  have e : idx_main_v12 (ix2 b j) = ix2 b (Cert.Spec.grow 1 j) := funext fun a => Fin.ext (by
    match a with
    | ⟨0, _⟩ => rfl
    | ⟨1, _⟩ => show 1024 + (j : ℕ) = 1024 * ((1 : Fin 3) : ℕ) + (j : ℕ); simp)
  rw [val_main_v12_apply, e]
  exact v5_at x0 x1 x2 x6 x8 b (Cert.Spec.grow 1 j)

/-- The candidate's input part. -/
theorem v13_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x6 : (⟨S3072x194, .f32⟩ : BufTy).Contents (Elt Ideal)) (x8 : (⟨S3072, .f32⟩ : BufTy).Contents (Elt Ideal)) (b : Fin 16384) (j : Fin 1024) :
    val_main_v13 (F := Ideal) x0 x1 x2 x6 x8 (ix2 b j)
      = Cert.Spec.affineAt (fun k => val_main_v0 (F := Ideal) x0 x1 x2 (ix2 b k)) (fun r k => x6 (ix2 (Cert.Spec.grow 2 r) k))
          (fun r => x8 (ix1 (Cert.Spec.grow 2 r))) j := by
  have e : idx_main_v13 (ix2 b j) = ix2 b (Cert.Spec.grow 2 j) := funext fun a => Fin.ext (by
    match a with
    | ⟨0, _⟩ => rfl
    | ⟨1, _⟩ => show 2048 + (j : ℕ) = 1024 * ((2 : Fin 3) : ℕ) + (j : ℕ); simp)
  rw [val_main_v13_apply, e]
  exact v5_at x0 x1 x2 x6 x8 b (Cert.Spec.grow 2 j)

/-- The reset gate's hidden part. -/
theorem v14_at (x5 : (⟨S16384x1024, .f32⟩ : BufTy).Contents (Elt Ideal)) (x7 : (⟨S3072x1024, .f32⟩ : BufTy).Contents (Elt Ideal)) (x9 : (⟨S3072, .f32⟩ : BufTy).Contents (Elt Ideal)) (b : Fin 16384) (j : Fin 1024) :
    val_main_v14 (F := Ideal) x5 x7 x9 (ix2 b j)
      = Cert.Spec.affineAt (fun k => x5 (ix2 b k)) (fun r k => x7 (ix2 (Cert.Spec.grow 0 r) k))
          (fun r => x9 (ix1 (Cert.Spec.grow 0 r))) j := by
  have e : idx_main_v14 (ix2 b j) = ix2 b (Cert.Spec.grow 0 j) := funext fun a => Fin.ext (by
    match a with
    | ⟨0, _⟩ => rfl
    | ⟨1, _⟩ => show (j : ℕ) = 1024 * ((0 : Fin 3) : ℕ) + (j : ℕ); simp)
  rw [val_main_v14_apply, e]
  exact v10_at x5 x7 x9 b (Cert.Spec.grow 0 j)

/-- The update gate's hidden part. -/
theorem v15_at (x5 : (⟨S16384x1024, .f32⟩ : BufTy).Contents (Elt Ideal)) (x7 : (⟨S3072x1024, .f32⟩ : BufTy).Contents (Elt Ideal)) (x9 : (⟨S3072, .f32⟩ : BufTy).Contents (Elt Ideal)) (b : Fin 16384) (j : Fin 1024) :
    val_main_v15 (F := Ideal) x5 x7 x9 (ix2 b j)
      = Cert.Spec.affineAt (fun k => x5 (ix2 b k)) (fun r k => x7 (ix2 (Cert.Spec.grow 1 r) k))
          (fun r => x9 (ix1 (Cert.Spec.grow 1 r))) j := by
  have e : idx_main_v15 (ix2 b j) = ix2 b (Cert.Spec.grow 1 j) := funext fun a => Fin.ext (by
    match a with
    | ⟨0, _⟩ => rfl
    | ⟨1, _⟩ => show 1024 + (j : ℕ) = 1024 * ((1 : Fin 3) : ℕ) + (j : ℕ); simp)
  rw [val_main_v15_apply, e]
  exact v10_at x5 x7 x9 b (Cert.Spec.grow 1 j)

/-- The candidate's hidden part. -/
theorem v16_at (x5 : (⟨S16384x1024, .f32⟩ : BufTy).Contents (Elt Ideal)) (x7 : (⟨S3072x1024, .f32⟩ : BufTy).Contents (Elt Ideal)) (x9 : (⟨S3072, .f32⟩ : BufTy).Contents (Elt Ideal)) (b : Fin 16384) (j : Fin 1024) :
    val_main_v16 (F := Ideal) x5 x7 x9 (ix2 b j)
      = Cert.Spec.affineAt (fun k => x5 (ix2 b k)) (fun r k => x7 (ix2 (Cert.Spec.grow 2 r) k))
          (fun r => x9 (ix1 (Cert.Spec.grow 2 r))) j := by
  have e : idx_main_v16 (ix2 b j) = ix2 b (Cert.Spec.grow 2 j) := funext fun a => Fin.ext (by
    match a with
    | ⟨0, _⟩ => rfl
    | ⟨1, _⟩ => show 2048 + (j : ℕ) = 1024 * ((2 : Fin 3) : ℕ) + (j : ℕ); simp)
  rw [val_main_v16_apply, e]
  exact v10_at x5 x7 x9 b (Cert.Spec.grow 2 j)

/-! ## The gates and the new hidden state -/

/-- The reset gate. -/
theorem v23_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (i : S16384x1024.Idx) :
    val_main_v23 (F := Ideal) x0 x1 x2 x5 x6 x7 x8 x9 i
      = Ideal.logistic (val_main_v11 (F := Ideal) x0 x1 x2 x6 x8 i + val_main_v14 (F := Ideal) x5 x7 x9 i) := by
  rw [val_main_v23_apply, val_main_v21_apply, val_main_v19_apply, val_main_v18_apply, val_main_v17_apply,
    v22_at, v20_at]
  exact sigmoid_spelt _

/-- The update gate. -/
theorem v30_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (i : S16384x1024.Idx) :
    val_main_v30 (F := Ideal) x0 x1 x2 x5 x6 x7 x8 x9 i
      = Ideal.logistic (val_main_v12 (F := Ideal) x0 x1 x2 x6 x8 i + val_main_v15 (F := Ideal) x5 x7 x9 i) := by
  rw [val_main_v30_apply, val_main_v28_apply, val_main_v26_apply, val_main_v25_apply, val_main_v24_apply,
    v29_at, v27_at]
  exact sigmoid_spelt _

/-- The new hidden state at batch row `b`, entry `j`, is the specification's. -/
theorem v38_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (b : Fin 16384) (j : Fin 1024) :
    val_main_v38 (F := Ideal) x0 x1 x2 x5 x6 x7 x8 x9 (ix2 b j)
      = Cert.Spec.newHidden (val_main_v0 (F := Ideal) x0 x1 x2) x5 x6 x7 x8 x9 b j := by
  rw [val_main_v38_apply, val_main_v36_apply, val_main_v37_apply, val_main_v35_apply, val_main_v33_apply,
    val_main_v32_apply, val_main_v31_apply, v34_at, v30_at, v23_at, v11_at, v12_at, v13_at, v14_at, v15_at, v16_at]
  rfl

/-- The new hidden state. -/
theorem hidden_eq (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) :
    val_main_v38 (F := Ideal) x0 x1 x2 x5 x6 x7 x8 x9
      = Cert.Spec.hiddenArr (val_main_v0 (F := Ideal) x0 x1 x2) x5 x6 x7 x8 x9 := by
  funext i
  obtain ⟨b, j, rfl⟩ : ∃ (b : Fin 16384) (j : Fin 1024), i = ix2 b j := ⟨i 0, i 1, eq_ix2 i⟩
  rw [Cert.Spec.hiddenArr_ix2]
  exact v38_at x0 x1 x2 x5 x6 x7 x8 x9 b j

/-! ## The first head -/

/-- The lower half of the new hidden state. -/
theorem v39_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (b : Fin 16384) (q : Fin 512) :
    val_main_v39 (F := Ideal) x0 x1 x2 x5 x6 x7 x8 x9 (ix2 b q)
      = Cert.Spec.newHidden (val_main_v0 (F := Ideal) x0 x1 x2) x5 x6 x7 x8 x9 b (Cert.Spec.half 0 q) := by
  have e : idx_main_v39 (ix2 b q) = ix2 b (Cert.Spec.half 0 q) := funext fun a => Fin.ext (by
    match a with
    | ⟨0, _⟩ => rfl
    | ⟨1, _⟩ => show (q : ℕ) = 512 * ((0 : Fin 2) : ℕ) + (q : ℕ); simp)
  rw [val_main_v39_apply, e]
  exact v38_at x0 x1 x2 x5 x6 x7 x8 x9 b (Cert.Spec.half 0 q)

/-- The head's input row: below column 512 the hidden half, from there on the auxiliary features. -/
theorem v41_at (x0 : (⟨S16384x2, .f32⟩ : BufTy).Contents (Elt Ideal)) (x1 : (⟨S16384x128, .f32⟩ : BufTy).Contents (Elt Ideal))
    (x2 x3 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (b : Fin 16384) (m : Fin 576) :
    val_main_v41 (F := Ideal) x0 x1 x2 x3 x5 x6 x7 x8 x9 (ix2 b m) = Cert.Spec.catAt (fun q => Cert.Spec.newHidden (val_main_v0 (F := Ideal) x0 x1 x2) x5 x6 x7 x8 x9 b (Cert.Spec.half 0 q)) (fun q => x3 (ix2 b q)) m := by
  unfold val_main_v41 Cert.Spec.catAt
  by_cases hm : m.val < 512
  · rw [dif_pos hm]
    refine (concatenate_pair_apply_left (s₁ := S16384x512) (s₂ := S16384x64) (1 : Fin S16384x576.rank) _ _ _ (ix2 b m) rfl
      (ix2 b (⟨m.val, hm⟩ : Fin 512))
      (fun c => by match c with | ⟨0, _⟩ => rfl | ⟨1, _⟩ => rfl)).trans ?_
    exact v39_at x0 x1 x2 x5 x6 x7 x8 x9 b ⟨m.val, hm⟩
  · rw [dif_neg hm]
    have hlt : m.val - 512 < 64 := by have := m.isLt; omega
    exact concatenate_pair_apply_right (s₁ := S16384x512) (s₂ := S16384x64) (1 : Fin S16384x576.rank) _ _ _ (ix2 b m) rfl rfl
      (ix2 b (⟨m.val - 512, hlt⟩ : Fin 64))
      (fun c hc => by
        match c with
        | ⟨0, _⟩ => rfl
        | ⟨1, _⟩ => exact absurd rfl hc)
      (by show m.val - 512 + 512 = m.val; omega)

/-- The first affine map: entry `k` of the hidden layer before the maximum. -/
theorem v46_at (x0 : (⟨S16384x2, .f32⟩ : BufTy).Contents (Elt Ideal)) (x1 : (⟨S16384x128, .f32⟩ : BufTy).Contents (Elt Ideal))
    (x2 x3 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x10 : (⟨S1024x576, .f32⟩ : BufTy).Contents (Elt Ideal)) (x11 : (⟨S1024, .f32⟩ : BufTy).Contents (Elt Ideal)) (b : Fin 16384) (k : Fin 1024) :
    val_main_v46 (F := Ideal) x0 x1 x2 x3 x5 x6 x7 x8 x9 x10 x11 (ix2 b k)
      = Cert.Spec.affineAt (Cert.Spec.catAt (fun q => Cert.Spec.newHidden (val_main_v0 (F := Ideal) x0 x1 x2) x5 x6 x7 x8 x9 b (Cert.Spec.half 0 q)) (fun q => x3 (ix2 b q))) (fun r m => x10 (ix2 r m)) (fun r => x11 (ix1 r)) k := by
  rw [val_main_v46_apply, val_main_v43_apply, val_main_v45_apply, val_main_v44_apply]
  show (∑ m : Fin 576, _) + _ = (∑ m : Fin 576, _) + _
  have eb : idx_main_v44 (idx_main_v45 (ix2 b k)) = ix1 k := funext fun a => by match a with | ⟨0, _⟩ => rfl
  rw [eb]
  refine congrArg (· + x11 (ix1 k)) (Finset.sum_congr rfl fun m _ => ?_)
  have el : lidx_main_v43 (ix2 b k) m = ix2 b m := funext fun a => by match a with | ⟨0, _⟩ => rfl | ⟨1, _⟩ => rfl
  have er : idx_main_v42 (ridx_main_v43 (ix2 b k) m) = ix2 k m :=
    funext fun a => by match a with | ⟨0, _⟩ => rfl | ⟨1, _⟩ => rfl
  rw [val_main_v42_apply, el, er, v41_at]

/-- The hidden layer: the maximum with the zero word. -/
theorem v47_at (x0 : (⟨S16384x2, .f32⟩ : BufTy).Contents (Elt Ideal)) (x1 : (⟨S16384x128, .f32⟩ : BufTy).Contents (Elt Ideal))
    (x2 x3 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x10 : (⟨S1024x576, .f32⟩ : BufTy).Contents (Elt Ideal)) (x11 : (⟨S1024, .f32⟩ : BufTy).Contents (Elt Ideal)) (b : Fin 16384) (k : Fin 1024) :
    val_main_v47 (F := Ideal) x0 x1 x2 x3 x5 x6 x7 x8 x9 x10 x11 (ix2 b k)
      = Cert.Spec.hiddenAt (Cert.Spec.catAt (fun q => Cert.Spec.newHidden (val_main_v0 (F := Ideal) x0 x1 x2) x5 x6 x7 x8 x9 b (Cert.Spec.half 0 q)) (fun q => x3 (ix2 b q))) (fun r m => x10 (ix2 r m)) (fun r => x11 (ix1 r)) k := by
  rw [val_main_v47_apply, v46_at, val_main_call0_v0_apply, val_main_call0_cst_apply]
  rfl

/-- The second affine map: the head's output at batch row `b`, entry `j`. -/
theorem v52_at (x0 : (⟨S16384x2, .f32⟩ : BufTy).Contents (Elt Ideal)) (x1 : (⟨S16384x128, .f32⟩ : BufTy).Contents (Elt Ideal))
    (x2 x3 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x10 : (⟨S1024x576, .f32⟩ : BufTy).Contents (Elt Ideal)) (x11 : (⟨S1024, .f32⟩ : BufTy).Contents (Elt Ideal)) (x12 : (⟨S256x1024, .f32⟩ : BufTy).Contents (Elt Ideal)) (x13 : (⟨S256, .f32⟩ : BufTy).Contents (Elt Ideal)) (b : Fin 16384) (j : Fin 256) :
    val_main_v52 (F := Ideal) x0 x1 x2 x3 x5 x6 x7 x8 x9 x10 x11 x12 x13 (ix2 b j)
      = Cert.Spec.headAt (fun q => Cert.Spec.newHidden (val_main_v0 (F := Ideal) x0 x1 x2) x5 x6 x7 x8 x9 b (Cert.Spec.half 0 q)) (fun q => x3 (ix2 b q)) (fun r m => x10 (ix2 r m)) (fun r => x11 (ix1 r))
          (fun r k => x12 (ix2 r k)) (fun r => x13 (ix1 r)) j := by
  rw [val_main_v52_apply, val_main_v49_apply, val_main_v51_apply, val_main_v50_apply]
  show (∑ k : Fin 1024, _) + _ = (∑ k : Fin 1024, _) + _
  have eb : idx_main_v50 (idx_main_v51 (ix2 b j)) = ix1 j := funext fun a => by match a with | ⟨0, _⟩ => rfl
  rw [eb]
  refine congrArg (· + x13 (ix1 j)) (Finset.sum_congr rfl fun k _ => ?_)
  have el : lidx_main_v49 (ix2 b j) k = ix2 b k := funext fun a => by match a with | ⟨0, _⟩ => rfl | ⟨1, _⟩ => rfl
  have er : idx_main_v48 (ridx_main_v49 (ix2 b j) k) = ix2 j k :=
    funext fun a => by match a with | ⟨0, _⟩ => rfl | ⟨1, _⟩ => rfl
  rw [val_main_v48_apply, el, er, v47_at]

/-- The first head: the lower half of the new hidden state with the first auxiliary array. -/
theorem head0_eq (x0 : (⟨S16384x2, .f32⟩ : BufTy).Contents (Elt Ideal)) (x1 : (⟨S16384x128, .f32⟩ : BufTy).Contents (Elt Ideal))
    (x2 x3 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x10 : (⟨S1024x576, .f32⟩ : BufTy).Contents (Elt Ideal))
    (x11 : (⟨S1024, .f32⟩ : BufTy).Contents (Elt Ideal)) (x12 : (⟨S256x1024, .f32⟩ : BufTy).Contents (Elt Ideal))
    (x13 : (⟨S256, .f32⟩ : BufTy).Contents (Elt Ideal)) :
    val_main_v52 (F := Ideal) x0 x1 x2 x3 x5 x6 x7 x8 x9 x10 x11 x12 x13
      = Cert.Spec.headArr (Cert.Spec.newHidden (val_main_v0 (F := Ideal) x0 x1 x2) x5 x6 x7 x8 x9) 0 x3 x10 x11 x12 x13 := by
  funext i
  obtain ⟨b, j, rfl⟩ : ∃ (b : Fin 16384) (j : Fin 256), i = ix2 b j := ⟨i 0, i 1, eq_ix2 i⟩
  rw [Cert.Spec.headArr_ix2]
  exact v52_at x0 x1 x2 x3 x5 x6 x7 x8 x9 x10 x11 x12 x13 b j

/-! ## The second head -/

/-- The upper half of the new hidden state. -/
theorem v40_at (x0 : (⟨S16384x2, .f32⟩ : BufTy).Contents (Elt Ideal)) (x1 : (⟨S16384x128, .f32⟩ : BufTy).Contents (Elt Ideal))
    (x2 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (b : Fin 16384) (q : Fin 512) :
    val_main_v40 (F := Ideal) x0 x1 x2 x5 x6 x7 x8 x9 (ix2 b q)
      = Cert.Spec.newHidden (val_main_v0 (F := Ideal) x0 x1 x2) x5 x6 x7 x8 x9 b (Cert.Spec.half 1 q) := by
  have e : idx_main_v40 (ix2 b q) = ix2 b (Cert.Spec.half 1 q) := funext fun a => Fin.ext (by
    match a with
    | ⟨0, _⟩ => rfl
    | ⟨1, _⟩ => show 512 + (q : ℕ) = 512 * ((1 : Fin 2) : ℕ) + (q : ℕ); simp)
  rw [val_main_v40_apply, e]
  exact v38_at x0 x1 x2 x5 x6 x7 x8 x9 b (Cert.Spec.half 1 q)

/-- The head's input row: below column 512 the hidden half, from there on the auxiliary features. -/
theorem v53_at (x0 : (⟨S16384x2, .f32⟩ : BufTy).Contents (Elt Ideal)) (x1 : (⟨S16384x128, .f32⟩ : BufTy).Contents (Elt Ideal))
    (x2 x4 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (b : Fin 16384) (m : Fin 576) :
    val_main_v53 (F := Ideal) x0 x1 x2 x4 x5 x6 x7 x8 x9 (ix2 b m) = Cert.Spec.catAt (fun q => Cert.Spec.newHidden (val_main_v0 (F := Ideal) x0 x1 x2) x5 x6 x7 x8 x9 b (Cert.Spec.half 1 q)) (fun q => x4 (ix2 b q)) m := by
  unfold val_main_v53 Cert.Spec.catAt
  by_cases hm : m.val < 512
  · rw [dif_pos hm]
    refine (concatenate_pair_apply_left (s₁ := S16384x512) (s₂ := S16384x64) (1 : Fin S16384x576.rank) _ _ _ (ix2 b m) rfl
      (ix2 b (⟨m.val, hm⟩ : Fin 512))
      (fun c => by match c with | ⟨0, _⟩ => rfl | ⟨1, _⟩ => rfl)).trans ?_
    exact v40_at x0 x1 x2 x5 x6 x7 x8 x9 b ⟨m.val, hm⟩
  · rw [dif_neg hm]
    have hlt : m.val - 512 < 64 := by have := m.isLt; omega
    exact concatenate_pair_apply_right (s₁ := S16384x512) (s₂ := S16384x64) (1 : Fin S16384x576.rank) _ _ _ (ix2 b m) rfl rfl
      (ix2 b (⟨m.val - 512, hlt⟩ : Fin 64))
      (fun c hc => by
        match c with
        | ⟨0, _⟩ => rfl
        | ⟨1, _⟩ => exact absurd rfl hc)
      (by show m.val - 512 + 512 = m.val; omega)

/-- The first affine map: entry `k` of the hidden layer before the maximum. -/
theorem v58_at (x0 : (⟨S16384x2, .f32⟩ : BufTy).Contents (Elt Ideal)) (x1 : (⟨S16384x128, .f32⟩ : BufTy).Contents (Elt Ideal))
    (x2 x4 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x14 : (⟨S1024x576, .f32⟩ : BufTy).Contents (Elt Ideal)) (x15 : (⟨S1024, .f32⟩ : BufTy).Contents (Elt Ideal)) (b : Fin 16384) (k : Fin 1024) :
    val_main_v58 (F := Ideal) x0 x1 x2 x4 x5 x6 x7 x8 x9 x14 x15 (ix2 b k)
      = Cert.Spec.affineAt (Cert.Spec.catAt (fun q => Cert.Spec.newHidden (val_main_v0 (F := Ideal) x0 x1 x2) x5 x6 x7 x8 x9 b (Cert.Spec.half 1 q)) (fun q => x4 (ix2 b q))) (fun r m => x14 (ix2 r m)) (fun r => x15 (ix1 r)) k := by
  rw [val_main_v58_apply, val_main_v55_apply, val_main_v57_apply, val_main_v56_apply]
  show (∑ m : Fin 576, _) + _ = (∑ m : Fin 576, _) + _
  have eb : idx_main_v56 (idx_main_v57 (ix2 b k)) = ix1 k := funext fun a => by match a with | ⟨0, _⟩ => rfl
  rw [eb]
  refine congrArg (· + x15 (ix1 k)) (Finset.sum_congr rfl fun m _ => ?_)
  have el : lidx_main_v55 (ix2 b k) m = ix2 b m := funext fun a => by match a with | ⟨0, _⟩ => rfl | ⟨1, _⟩ => rfl
  have er : idx_main_v54 (ridx_main_v55 (ix2 b k) m) = ix2 k m :=
    funext fun a => by match a with | ⟨0, _⟩ => rfl | ⟨1, _⟩ => rfl
  rw [val_main_v54_apply, el, er, v53_at]

/-- The hidden layer: the maximum with the zero word. -/
theorem v59_at (x0 : (⟨S16384x2, .f32⟩ : BufTy).Contents (Elt Ideal)) (x1 : (⟨S16384x128, .f32⟩ : BufTy).Contents (Elt Ideal))
    (x2 x4 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x14 : (⟨S1024x576, .f32⟩ : BufTy).Contents (Elt Ideal)) (x15 : (⟨S1024, .f32⟩ : BufTy).Contents (Elt Ideal)) (b : Fin 16384) (k : Fin 1024) :
    val_main_v59 (F := Ideal) x0 x1 x2 x4 x5 x6 x7 x8 x9 x14 x15 (ix2 b k)
      = Cert.Spec.hiddenAt (Cert.Spec.catAt (fun q => Cert.Spec.newHidden (val_main_v0 (F := Ideal) x0 x1 x2) x5 x6 x7 x8 x9 b (Cert.Spec.half 1 q)) (fun q => x4 (ix2 b q))) (fun r m => x14 (ix2 r m)) (fun r => x15 (ix1 r)) k := by
  rw [val_main_v59_apply, v58_at, val_main_call1_v0_apply, val_main_call1_cst_apply]
  rfl

/-- The second affine map: the head's output at batch row `b`, entry `j`. -/
theorem v64_at (x0 : (⟨S16384x2, .f32⟩ : BufTy).Contents (Elt Ideal)) (x1 : (⟨S16384x128, .f32⟩ : BufTy).Contents (Elt Ideal))
    (x2 x4 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x14 : (⟨S1024x576, .f32⟩ : BufTy).Contents (Elt Ideal)) (x15 : (⟨S1024, .f32⟩ : BufTy).Contents (Elt Ideal)) (x16 : (⟨S256x1024, .f32⟩ : BufTy).Contents (Elt Ideal)) (x17 : (⟨S256, .f32⟩ : BufTy).Contents (Elt Ideal)) (b : Fin 16384) (j : Fin 256) :
    val_main_v64 (F := Ideal) x0 x1 x2 x4 x5 x6 x7 x8 x9 x14 x15 x16 x17 (ix2 b j)
      = Cert.Spec.headAt (fun q => Cert.Spec.newHidden (val_main_v0 (F := Ideal) x0 x1 x2) x5 x6 x7 x8 x9 b (Cert.Spec.half 1 q)) (fun q => x4 (ix2 b q)) (fun r m => x14 (ix2 r m)) (fun r => x15 (ix1 r))
          (fun r k => x16 (ix2 r k)) (fun r => x17 (ix1 r)) j := by
  rw [val_main_v64_apply, val_main_v61_apply, val_main_v63_apply, val_main_v62_apply]
  show (∑ k : Fin 1024, _) + _ = (∑ k : Fin 1024, _) + _
  have eb : idx_main_v62 (idx_main_v63 (ix2 b j)) = ix1 j := funext fun a => by match a with | ⟨0, _⟩ => rfl
  rw [eb]
  refine congrArg (· + x17 (ix1 j)) (Finset.sum_congr rfl fun k _ => ?_)
  have el : lidx_main_v61 (ix2 b j) k = ix2 b k := funext fun a => by match a with | ⟨0, _⟩ => rfl | ⟨1, _⟩ => rfl
  have er : idx_main_v60 (ridx_main_v61 (ix2 b j) k) = ix2 j k :=
    funext fun a => by match a with | ⟨0, _⟩ => rfl | ⟨1, _⟩ => rfl
  rw [val_main_v60_apply, el, er, v59_at]

/-- The second head: the upper half of the new hidden state with the second auxiliary array. -/
theorem head1_eq (x0 : (⟨S16384x2, .f32⟩ : BufTy).Contents (Elt Ideal)) (x1 : (⟨S16384x128, .f32⟩ : BufTy).Contents (Elt Ideal))
    (x2 x4 : (⟨S16384x64, .f32⟩ : BufTy).Contents (Elt Ideal)) (x5 : (⟨S16384x1024, .f32⟩ : BufTy).Contents (Elt Ideal))
    (x6 : (⟨S3072x194, .f32⟩ : BufTy).Contents (Elt Ideal)) (x7 : (⟨S3072x1024, .f32⟩ : BufTy).Contents (Elt Ideal))
    (x8 x9 : (⟨S3072, .f32⟩ : BufTy).Contents (Elt Ideal)) (x14 : (⟨S1024x576, .f32⟩ : BufTy).Contents (Elt Ideal))
    (x15 : (⟨S1024, .f32⟩ : BufTy).Contents (Elt Ideal)) (x16 : (⟨S256x1024, .f32⟩ : BufTy).Contents (Elt Ideal))
    (x17 : (⟨S256, .f32⟩ : BufTy).Contents (Elt Ideal)) :
    val_main_v64 (F := Ideal) x0 x1 x2 x4 x5 x6 x7 x8 x9 x14 x15 x16 x17
      = Cert.Spec.headArr (Cert.Spec.newHidden (val_main_v0 (F := Ideal) x0 x1 x2) x5 x6 x7 x8 x9) 1 x4 x14 x15 x16 x17 := by
  funext i
  obtain ⟨b, j, rfl⟩ : ∃ (b : Fin 16384) (j : Fin 256), i = ix2 b j := ⟨i 0, i 1, eq_ix2 i⟩
  rw [Cert.Spec.headArr_ix2]
  exact v64_at x0 x1 x2 x4 x5 x6 x7 x8 x9 x14 x15 x16 x17 b j

end Cert.ReferenceIdeal.Stages

end
-- ==== Proof.lean ====
/-
  One step of a gated recurrent cell followed by two two-layer output heads, as one batch-tiled kernel, against the
  same computation written with whole-array operations.

  Both programs join three feature arrays into the cell's input. The kernel cuts the stacked gate weights and biases into
  their three bands BEFORE multiplying, works on blocks of 256 batch rows with the weights resident, casts its matrix
  operands to a narrower float format, and uses a fused sigmoid; the reference multiplies by the whole stacked weights and
  cuts the three gates out of the product afterwards, and spells the sigmoid as `1 / (1 + exp (−x))`. On the extended
  reals a cast is the identity, a matrix product into a zero accumulator is the plain sum over the contracted axis, the
  fused sigmoid is that quotient by definition, and every operation acts on each batch row by itself; a band of a product
  is the product with the band. So both programs compute, entry by entry, the row functions of Proof/Spec.lean — the
  same sums in the same order — and no algebraic law beyond re-indexing is needed: the precondition is never opened.

  The three frames: the two kernel programs run the same text (Proof/KIBody.lean, KIEntry.lean, KIRun.lean and their
  word-level copies): the host operations, then the launch, whose body at each grid point reads its input blocks and
  overwrites its three result blocks; the reference is host operations only. The idealization's ledger is empty.
-/
import proofs.«133260_j481036337285_1_alg».proof.Defs
import proofs.«133260_j481036337285_1_alg».proof.Proof.Gen.Kernel
import proofs.«133260_j481036337285_1_alg».proof.Proof.Gen.KernelIdeal
import proofs.«133260_j481036337285_1_alg».proof.Proof.Gen.ReferenceIdeal
import proofs.«133260_j481036337285_1_alg».proof.Proof.Gen.ReferenceIdeal.Run
import proofs.«133260_j481036337285_1_alg».proof.Proof.Gen.ReferenceIdeal.Read
import proofs.«133260_j481036337285_1_alg».proof.Proof.Gen.Pre_finite_inputs
import proofs.«133260_j481036337285_1_alg».proof.Proof.KRun
import proofs.«133260_j481036337285_1_alg».proof.Proof.KIFinal
import proofs.«133260_j481036337285_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as they were. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- The reference is host operations only: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the arguments, the idealized kernel ends with its three results at the specification's
    arrays (the value run) and the reference with its three results at the same arrays (its run, read stage by stage). -/
theorem algebraic : Cert.algebraic_KernelIdeal_ReferenceIdeal := by
  intro m ρ m' ρ' _ hagree
  refine ⟨fun c => Cert.KernelIdeal.Hand.head0Final m c, fun c => Cert.KernelIdeal.Hand.head1Final m c,
    fun c => Cert.KernelIdeal.Hand.hiddenFinal m c, Cert.KernelIdeal.Hand.value_run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨a0, a1, a2, a3, a4, a5, a6, a7, a8, a9, a10, a11, a12, a13, a14, a15, a16, a17⟩ := hagree c
    rw [Cert.ReferenceIdeal.Read.val_main_v52_eq, Cert.ReferenceIdeal.Stages.head0_eq, a0, a1, a2, a3, a5, a6, a7, a8, a9, a10, a11, a12, a13]
    show _ = Cert.KernelIdeal.Hand.head0Final m c
    unfold Cert.KernelIdeal.Hand.head0Final
    rw [Cert.KernelIdeal.Hand.joined_eq]
    rfl
  · obtain ⟨a0, a1, a2, a3, a4, a5, a6, a7, a8, a9, a10, a11, a12, a13, a14, a15, a16, a17⟩ := hagree c
    rw [Cert.ReferenceIdeal.Read.val_main_v64_eq, Cert.ReferenceIdeal.Stages.head1_eq, a0, a1, a2, a4, a5, a6, a7, a8, a9, a14, a15, a16, a17]
    show _ = Cert.KernelIdeal.Hand.head1Final m c
    unfold Cert.KernelIdeal.Hand.head1Final
    rw [Cert.KernelIdeal.Hand.joined_eq]
    rfl
  · obtain ⟨a0, a1, a2, a3, a4, a5, a6, a7, a8, a9, a10, a11, a12, a13, a14, a15, a16, a17⟩ := hagree c
    rw [Cert.ReferenceIdeal.Read.val_main_v38_eq, Cert.ReferenceIdeal.Stages.hidden_eq, a0, a1, a2, a5, a6, a7, a8, a9]
    show _ = Cert.KernelIdeal.Hand.hiddenFinal m c
    unfold Cert.KernelIdeal.Hand.hiddenFinal
    rw [Cert.KernelIdeal.Hand.joined_eq]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
